-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S50257x512 : Shape := ⟨2, ![50257, 512]⟩
abbrev S_ : Shape := ⟨0, ![]⟩

class Facts : Prop where
  bcast_S_S50257x512 : S_.BroadcastsInDim S50257x512 (![] : Fin 0 → Fin S50257x512.rank)
  reducesTo_S50257x512_S_d0_1 : S50257x512.ReducesTo [0, 1] S_
  h_S_ : 0 < S_.numel
  bcast_S_S8x4096 : S_.BroadcastsInDim S8x4096 (![] : Fin 0 → Fin S8x4096.rank)

variable [Facts]

def fn {F : FTy → Type} [FloatOps F] (main_arg0 : IVec S8x4096 32) (main_arg1 : IVec S8x4096 32) (main_arg2 : FVec F S50257x512 .f32) : IVec S8x4096 1 :=
  let main_v0 : FVec F S50257x512 .f32 := Host.absf main_arg2
  let main_cst : FVec F S_ .f32 := constant S_ .f32 0x7F800000#32
  let main_v1 : FVec F S50257x512 .f32 := broadcastInDim S50257x512 ![] bcast_S_S50257x512 main_cst
  let main_v2 : IVec S50257x512 1 := cmpf .olt main_v0 main_v1
  let main_c : IVec S_ 1 := constantI S_ 1 1#1
  let main_v3 : IVec S_ 1 := (fun x v => Host.reduce IntOp.andi x v reducesTo_S50257x512_S_d0_1 h_S_) main_v2 main_c
  let main_c_0 : IVec S_ 32 := constantI S_ 32 0#32
  let main_v4 : IVec S8x4096 32 := broadcastInDim S8x4096 ![] bcast_S_S8x4096 main_c_0
  let main_v5 : IVec S8x4096 1 := cmpi .sge main_arg0 main_v4
  let main_v6 : IVec S8x4096 1 := broadcastInDim S8x4096 ![] bcast_S_S8x4096 main_v3
  let main_v7 : IVec S8x4096 1 := andi main_v6 main_v5
  let main_c_1 : IVec S_ 32 := constantI S_ 32 50257#32
  let main_v8 : IVec S8x4096 32 := broadcastInDim S8x4096 ![] bcast_S_S8x4096 main_c_1
  let main_v9 : IVec S8x4096 1 := cmpi .slt main_arg0 main_v8
  let main_v10 : IVec S8x4096 1 := andi main_v7 main_v9
  let main_c_2 : IVec S_ 32 := constantI S_ 32 0#32
  let main_v11 : IVec S8x4096 32 := broadcastInDim S8x4096 ![] bcast_S_S8x4096 main_c_2
  let main_v12 : IVec S8x4096 1 := cmpi .sge main_arg1 main_v11
  let main_v13 : IVec S8x4096 1 := andi main_v10 main_v12
  let main_c_3 : IVec S_ 32 := constantI S_ 32 50257#32
  let main_v14 : IVec S8x4096 32 := broadcastInDim S8x4096 ![] bcast_S_S8x4096 main_c_3
  let main_v15 : IVec S8x4096 1 := cmpi .slt main_arg1 main_v14
  let main_v16 : IVec S8x4096 1 := andi main_v13 main_v15
  main_v16
-- ==== Kernel.lean ====
abbrev S8x4096 : Shape := ⟨2, ![8, 4096]⟩
abbrev S50257x512 : Shape := ⟨2, ![50257, 512]⟩
abbrev S32768 : Shape := ⟨1, ![32768]⟩
abbrev S50257x1x512 : Shape := ⟨3, ![50257, 1, 512]⟩
abbrev S32768x1x512 : Shape := ⟨3, ![32768, 1, 512]⟩
abbrev S1x1x512 : Shape := ⟨3, ![1, 1, 512]⟩
abbrev S1 : Shape := ⟨1, ![1]⟩
abbrev S8x4096x512 : Shape := ⟨3, ![8, 4096, 512]⟩

abbrev nBuf : Space → Nat
  | .hbm => 6
  | .vmem => 6
  | .smem => 2
  | _ => 0

abbrev bufTy : (tb : Table) → Fin (tcTables nBuf tb) → BufTy
  | .hbm, ⟨0, _⟩ => ⟨S8x4096, .i32⟩
  | .hbm, ⟨1, _⟩ => ⟨S8x4096, .i32⟩
  | .hbm, ⟨2, _⟩ => ⟨S50257x512, .f32⟩
  | .hbm, ⟨3, _⟩ => ⟨S50257x1x512, .f32⟩
  | .hbm, ⟨4, _⟩ => ⟨S32768x1x512, .f32⟩
  | .hbm, ⟨5, _⟩ => ⟨S8x4096x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .smem, ⟨0, _⟩ => ⟨S32768, .i32⟩
  | .local _ .smem, ⟨1, _⟩ => ⟨S32768, .i32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32768], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096_S32768 : S8x4096.ShapeCasts S32768
  shapeCasts_S50257x512_S50257x1x512 : S50257x512.ShapeCasts S50257x1x512
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S32768x1x512_S8x4096x512 : S32768x1x512.ShapeCasts S8x4096x512
  hrank0 : 0 < grid0.rank
  k0_off1_inb : ∀ i : grid0.Coords, ∀ a, (k0_off1 i) a + S1.size a ≤ S32768.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32768x1x512.size a
  hwx0_2 : ∀ i : grid0.Coords, EltTy.bits .f32 = 32 ∨ (Rect.block (s := S32768x1x512) S1x1x512.size (cc0_transform_2 i) (hinb0_2 i)).WholeWords (EltTy.packing .f32)

variable [Facts₀]

abbrev spec0_0 : Pipeline.WinSpec sig grid0.rank :=
  Pipeline.WinSpec.ofSpec (Memref.whole main_v2) S1x1x512.size reads0_0 false false 2 stage0_0 sem0_0 nbuf0_0 hstage0_0

abbrev spec0_1 : Pipeline.WinSpec sig grid0.rank :=
  Pipeline.WinSpec.ofSpec (Memref.whole main_v2) S1x1x512.size reads0_1 false false 2 stage0_1 sem0_1 nbuf0_1 hstage0_1

abbrev spec0_2 : Pipeline.WinSpec sig grid0.rank :=
  Pipeline.WinSpec.ofSpec (Memref.whole main_v3) S1x1x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x512.size a ≤ S50257x1x512.size a), EltTy.bits .f32 = 32 ∨ (Rect.block (s := S50257x1x512) S1x1x512.size (cc0_transform_0 k0_off1_inb numel1_S1 pf i) h).WholeWords (EltTy.packing .f32)) ∧
  (∀ i : grid0.Coords, ∃ h : (∀ a, (cc0_transform_1 k0_off1_inb numel1_S1 pf i a + 1) * S1x1x512.size a ≤ S50257x1x512.size a), EltTy.bits .f32 = 32 ∨ (Rect.block (s := S50257x1x512) S1x1x512.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x4096 : Shape := ⟨2, ![8, 4096]⟩
abbrev S50257x512 : Shape := ⟨2, ![50257, 512]⟩
abbrev S_ : Shape := ⟨0, ![]⟩
abbrev S8x4096x1 : Shape := ⟨3, ![8, 4096, 1]⟩
abbrev S8x4096x512 : Shape := ⟨3, ![8, 4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S8x4096, .i32⟩
  | .hbm, ⟨2, _⟩ => ⟨S50257x512, .f32⟩
  | .hbm, ⟨3, _⟩ => ⟨S_, .i32⟩
  | .hbm, ⟨4, _⟩ => ⟨S8x4096, .i32⟩
  | .hbm, ⟨5, _⟩ => ⟨S8x4096, .i1⟩
  | .hbm, ⟨6, _⟩ => ⟨S_, .i32⟩
  | .hbm, ⟨7, _⟩ => ⟨S8x4096, .i32⟩
  | .hbm, ⟨8, _⟩ => ⟨S8x4096, .i32⟩
  | .hbm, ⟨9, _⟩ => ⟨S8x4096, .i32⟩
  | .hbm, ⟨10, _⟩ => ⟨S8x4096x1, .i32⟩
  | .hbm, ⟨11, _⟩ => ⟨S8x4096x512, .f32⟩
  | .hbm, ⟨12, _⟩ => ⟨S_, .i32⟩
  | .hbm, ⟨13, _⟩ => ⟨S8x4096, .i32⟩
  | .hbm, ⟨14, _⟩ => ⟨S8x4096, .i1⟩
  | .hbm, ⟨15, _⟩ => ⟨S_, .i32⟩
  | .hbm, ⟨16, _⟩ => ⟨S8x4096, .i32⟩
  | .hbm, ⟨17, _⟩ => ⟨S8x4096, .i32⟩
  | .hbm, ⟨18, _⟩ => ⟨S8x4096, .i32⟩
  | .hbm, ⟨19, _⟩ => ⟨S8x4096x1, .i32⟩
  | .hbm, ⟨20, _⟩ => ⟨S8x4096x512, .f32⟩
  | .hbm, ⟨21, _⟩ => ⟨S8x4096, .i1⟩
  | .hbm, ⟨22, _⟩ => ⟨S8x4096x1, .i1⟩
  | .hbm, ⟨23, _⟩ => ⟨S_, .f32⟩
  | .hbm, ⟨24, _⟩ => ⟨S_, .f32⟩
  | .hbm, ⟨25, _⟩ => ⟨S8x4096x512, .i1⟩
  | .hbm, ⟨26, _⟩ => ⟨S8x4096x512, .f32⟩
  | .hbm, ⟨27, _⟩ => ⟨S8x4096x512, .f32⟩
  | .hbm, ⟨28, _⟩ => ⟨S8x4096x512, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x512_0_1_2 : S8x4096x1.BroadcastsInDim S8x4096x512 (![0, 1, 2] : Fin 3 → Fin S8x4096x512.rank)
  bcast_S_S8x4096x512 : S_.BroadcastsInDim S8x4096x512 (![] : Fin 0 → Fin S8x4096x512.rank)
  gather_S50257x512_S8x4096x1_S8x4096x512_2_0_n_n_0_2_1512_wf : GatherDims.WF S50257x512 S8x4096x1 S8x4096x512 [2] [0] [] [0] [] 2 ![1, 512]

variable [Facts₀]

def gather_S50257x512_S8x4096x1_S8x4096x512_2_0_n_n_0_2_1512 : GatherDims S50257x512 S8x4096x1 S8x4096x512 where
  offsetDims := [2]
  collapsedSliceDims := [0]
  operandBatchingDims := []
  startIndicesBatchingDims := []
  startIndexMap := [0]
  indexVectorDim := 2
  sliceSizes := ![1, 512]
  wf := gather_S50257x512_S8x4096x1_S8x4096x512_2_0_n_n_0_2_1512_wf

class Facts : Prop extends Facts₀ where

variable [Facts]
-- ==== Proof.Bits.Setup.lean ====
/-
  The gather kernel's launch, first part: what the region finds.

  @main reshapes the two index arrays [8, 4096] to [32768] (the tables the region prefetches), reshapes the
  embedding table [50257, 512] to [50257, 1, 512], runs the region over 32768 grid points, and reshapes the
  region's result [32768, 1, 512] to [8, 4096, 512]. This module names the buffers' contents when the region is
  entered (the three reshapes have run), the tables' contents read off them, the side condition the region asks of
  the tables (every row index names a row of the table), and reduces @main to the region continued by the last
  reshape.
-/
import proofs.«418187_j11072425689873_2_alg».proof.Proof.Gen.Kernel.Launch
import proofs.«418187_j11072425689873_2_alg».proof.Proof.Gen.Kernel.Skeleton
import Idealize.ShloMosaic.Lib.Pipeline.FrameSuffix
import Idealize.ShloMosaic.Lib.Pipeline.FrameBody
import Idealize.ShloMosaic.Lib.Tactic

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the three reshapes before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The two row-index tables as the region reads them at entry (one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every row index the two input windows' index maps read names a row of the [50257, 1, 512] table. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three reshapes, the region, the last reshape: it reduces to the region continued by the last
    reshape, at the contents after the first three. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

end Cert.Kernel.Gather

end
-- ==== Proof.Bits.Body.lean ====
/-
  The gather kernel's body at one grid point.

  At point i the body reads the two row indices idx1[i], idx2[i] from the tables, loads the two staged rows (row
  idx1[i] and row idx2[i] of the embedding table, each a [1, 1, 512] block), and stores into the output block
  row₁ + (if idx1[i] = idx2[i] then 0 else row₂), lane by lane: the payload `k0_pay1` of the two words and the two
  rows. The run: from the two input staging buffers at their rows, the output staging buffer at anything and the
  tables' read-only halves, the body returns with the inputs as they were and the output buffer at that payload.
-/
import proofs.«418187_j11072425689873_2_alg».proof.Proof.Bits.Setup
import Idealize.ShloMosaic.Lib.Ring
import Idealize.ShloMosaic.Lib.Pipeline.Value

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each table as the body is handed it: its whole buffer as a memref. -/
abbrev tbM0 : Memref sig .tc .smem S32768 .i32 := Memref.whole main_v0
abbrev htbM0 : tbM0.IsWhole := Memref.isWhole_whole _
abbrev tbM1 : Memref sig .tc .smem S32768 .i32 := Memref.whole main_v1
abbrev htbM1 : tbM1.IsWhole := Memref.isWhole_whole _

/-- A table's buffer on core `c`, and it held read-only (half the full share) at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of a [32768] table the body reads at grid point `i`: entry `i`. -/
abbrev wordAt (c : Dev nD) (M : Memref sig .tc .smem S32768 .i32) (xt : TbBuf (F := F) c M) (i : grid0.Coords) : Elt F .i32 :=
  M.view.readAt (Elt F) (Rect.unit (s := S32768) (k0_off1 i) S1.size (k0_off1_inb i)).toLoadRect xt (Shape.Idx.first (numel1_S1.symm ▸ Nat.one_pos))

theorem zero3 : (![0, 0, 0] : Fin 3 → Nat) = fun _ => 0 := by
  funext a; fin_cases a <;> rfl

set_option maxHeartbeats 1000000 in
/-- The body's run on any whole staging memrefs. -/
theorem bodyRun (c : Dev nD) (i : grid0.Coords) (arg3 : Memref sig .tc .vmem S1x1x512 .f32) (harg3 : arg3.IsWhole)
    (arg4 : Memref sig .tc .vmem S1x1x512 .f32) (harg4 : arg4.IsWhole) (arg5 : Memref sig .tc .vmem S1x1x512 .f32) (harg5 : arg5.IsWhole)
    (x0 x1 : Vec F S1x1x512 .f32) (xt0 : TbBuf (F := F) c tbM0) (xt1 : TbBuf (F := F) c tbM1) (E : Set ℕ) (K : PUnit → sProp 𝕄) :
    iprop(owns (c : Thread nD τ) arg3 fullShare x0 ∗ owns (c : Thread nD τ) arg4 fullShare x1 ∗ (∃ d, owns (c : Thread nD τ) arg5 fullShare d) ∗ tbPt c tbM0 xt0 ∗ tbPt c tbM1 xt1
        ∗ (iprop(owns (c : Thread nD τ) arg3 fullShare x0 ∗ owns (c : Thread nD τ) arg4 fullShare x1
              ∗ owns (c : Thread nD τ) arg5 fullShare (k0_pay1 (wordAt c tbM0 xt0 i) (wordAt c tbM1 xt1 i) x0 x1) ∗ tbPt c tbM0 xt0 ∗ tbPt c tbM1 xt1) -∗ K ⟨⟩))
      ⊢ wp frame (wpE (defs₀ (F := F)) Variants.none c none) E (cc0__gather_kernel i tbM0 htbM0 tbM1 htbM1 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, HT0, HT1, Hk⟩
  obtain rfl := harg3.eq_unread hf0
  obtain rfl := harg4.eq_unread hf1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    rw [View.read_writes_eq_canon _ _ _ (fun y => View.cover_of_wholeMem _ (by sl_whole_mem) y)]
    sl_unfold_words
    rw [View.canon_unit_zero zero3]
    simp only [View.readAt_eq_ld, harg3.read_unread, harg4.read_unread, View.ld_unit_zero (S := S1x1x512) zero3]
    rfl
  isplitl [HT0]; · iexact HT0
  iexact HT1

end Cert.Kernel.Gather

end
-- ==== Proof.Bits.Schedule.lean ====
/-
  The output window's schedule: its block index is the grid point itself, so consecutive points name different
  blocks and the block is written back at every point.
-/
import proofs.«418187_j11072425689873_2_alg».proof.Proof.Bits.Setup

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Decided over the 32768 grid points. -/
theorem flushOut : ∀ t : Fin grid0.N, Pipeline.Window.flushOf grid0 true cc0_transform_2 t = true := by decide +kernel

/-- The output window is written back at every point, whatever the tables hold (its index map reads none). -/
theorem flush2 (a : (pcfg0 (F := F)).Adm) : ∀ t : Fin (cfg0 a).N, ((cfg0 a).win 2).flush t = true := flushOut

end Cert.Kernel.Gather

end
-- ==== Proof.Bits.Data.lean ====
/-
  The gather kernel's proof data and its body obligation.

  Window 0 and window 1 are two read-only windows on ONE array, the [50257, 1, 512] table: at point t window 0 stages
  row idx1[t] and window 1 row idx2[t]. Window 2 is the output, block t at point t. After the body at point t the two
  input buffers hold their rows still and the output buffer holds
      row idx1[t] + (if idx1[t] = idx2[t] then 0 else row idx2[t])
  (the payload `k0_pay1`). The table's full share is dealt half to each of the two windows that read it. The region's
  invariant is the scoped rest, the generator register and the tables' read-only halves, the same at every point.
-/
import proofs.«418187_j11072425689873_2_alg».proof.Proof.Bits.Body
import proofs.«418187_j11072425689873_2_alg».proof.Proof.Bits.Schedule

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the output's staging buffer at point `t`: the sum of the two gathered rows, the second
    dropped when the two indices coincide. -/
def outAt (hO : Ok m) (c : Dev nD) (t : Fin (cfgM m hO).N) : Vec F S1x1x512 .f32 :=
  k0_pay1 (wordAt c tbM0 (tbl m 0) (grid0.coords t)) (wordAt c tbM1 (tbl m 1) (grid0.coords t)) (iblk m hO c 0 t) (iblk m hO c 1 t)

/-- The proof data on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ _ := iprop(Pipeline.ΦA spec0 c ∗ Pipeline.ΦT pre0 (tbl m) c)
  q w := match w with
    | ⟨0, _⟩ => fullShare.left
    | ⟨1, _⟩ => fullShare.right
    | ⟨2, _⟩ => fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = outAt m hO c t := by dsimp only [dats]; try rfl

/-- Each input's current staging buffer holds its row at every point, fetched there or not (unfetched, the row index
    has not moved). -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- The output's staging buffer is fresh at every point: the block was written back at the point before. -/
theorem before_2 (hO : Ok m) (c : Dev nD) (t : Fin (cfgM m hO).N) (d) : (dats m hO 0 c).before 2 t d = d :=
  (dats m hO 0 c).before_out_reset 2 rfl t
    (by by_cases h : t.val = 0
        · exact .inl h
        · exact .inr ⟨h, flush2 (adm m hO) _⟩) d

/-- Each window's current staging memref at point `t`, as the pipeline passes it to the body. -/
abbrev ms0 (hO : Ok m) (t : Fin (cfgM m hO).N) : Memref sig .tc .vmem S1x1x512 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x512 .f32 := spec0_2.stage ((cfgM m hO).slots t 2)
abbrev hs2 (hO : Ok m) (t : Fin (cfgM m hO).N) : (ms2 m hO t).IsWhole := hstage0_2 (((cfgM m hO).slots t 2).cast nbuf0_2)

/-- The body at point `t`, on what the pipeline calls it with. -/
abbrev bodyAt (hO : Ok m) (t : Fin (cfgM m hO).N) : Prog (TpuEff nD τ sig (Elt F) Λ₀ .tc) PUnit :=
  cc0__gather_kernel (grid0.coords t) tbM0 htbM0 tbM1 htbM1 (ms0 m hO t) (hs0 m hO t) (ms1 m hO t) (hs1 m hO t) (ms2 m hO t) (hs2 m hO t)

/-- The tables' halves the region hands the body, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

/-- The body at any point: the inputs' buffers hold their rows, the output's anything; the run applies; the
    invariant passes through, its tables only read; the core owes nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2]
  rw [show (dats m hO 0 c).Φ t.castSucc = iprop(Pipeline.ΦA spec0 c ∗ Pipeline.ΦT pre0 (tbl m) c) from rfl, PhiT_eq]
  unfold outAt
  iintro ⟨⟨HΦ, ⟨HT0, HT1⟩⟩, Ho, ⟨%d0, H0⟩, ⟨%d1, H1⟩, ⟨%d2, H2⟩⟩
  iapply (bodyRun c (grid0.coords t) _ _ _ _ _ _ (iblk m hO c 0 t) (iblk m hO c 1 t) (tbl m 0) (tbl m 1) Set.univ _)
  isplitl [H0]; · iexact H0
  isplitl [H1]; · iexact H1
  isplitl [H2]; · iexists _; iexact H2
  isplitl [HT0]; · iexact HT0
  isplitl [HT1]; · iexact HT1
  iintro ⟨H0, H1, H2, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  iexact H2

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.Kernel.Gather

end
-- ==== Proof.Bits.Launch.lean ====
/-
  The gather kernel's launch.

  The region runs over the three windows; two of them read ONE array, the [50257, 1, 512] table, so the table's
  buffer, which the launch holds whole, is dealt half to each (a points-to splits along its share), the output's
  buffer goes whole to the third. After the region the last reshape runs over the output's buffer and the result's,
  and the run ends with the result at the reshape of what the region wrote, the arguments as they were.
-/
import proofs.«418187_j11072425689873_2_alg».proof.Proof.Bits.Data

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the table's and the output's. -/
theorem arrBufs_eq (c : Dev nD) (W : (b : Ref sig .tc) → Buf (Elt F) ((c : Thread nD τ).loc b)) :
    (Pipeline.arrBufs spec0 c W : sProp 𝕄)
      = iprop((((c : Thread nD τ).loc main_v2) ↦{fullShare} W main_v2) ∗ (((c : Thread nD τ).loc main_v3) ↦{fullShare} W main_v3)) := by
  unfold Pipeline.arrBufs
  rw [show (Finset.univ.image (Pipeline.arrRef spec0)) = insert main_v2 {main_v3} from by decide,
    bigSep_insert (by decide), bigSep_singleton]
  rfl

/-- The windows' arrays at contents `Fa`, window by window: the table at half the full share twice, the output whole. -/
theorem arrays_eq3 (hO : Ok m) (c : Dev nD)
    (Fa : (w : Fin (cfgM m hO).W) → Buf (Elt F) (((cfgM m hO).win w).arr.view.loc (c : Thread nD τ))) :
    ((dats m hO 0 c).arrays Fa : sProp 𝕄)
      = iprop((((c : Thread nD τ).loc main_v2) ↦{fullShare.left} Fa 0) ∗ (((c : Thread nD τ).loc main_v2) ↦{fullShare.right} Fa 1)
          ∗ (((c : Thread nD τ).loc main_v3) ↦{fullShare} Fa 2)) := by
  have e0 : ((cfgM m hO).win (0 : Fin 3)).arr.view.set = Finset.univ := (arr_whole0 (0 : Fin 3)).set_eq_univ
  have e1 : ((cfgM m hO).win (1 : Fin 3)).arr.view.set = Finset.univ := (arr_whole0 (1 : Fin 3)).set_eq_univ
  have e2 : ((cfgM m hO).win (2 : Fin 3)).arr.view.set = Finset.univ := (arr_whole0 (2 : Fin 3)).set_eq_univ
  unfold Dat.arrays
  rw [bigSep_W0, e0]
  try rw [e1]
  rw [e2]
  rfl

theorem hsplit (hO : Ok m) (c : Dev nD) :
    (Pipeline.arrBufs spec0 c (V m c) : sProp 𝕄) ⊢ (dats m hO 0 c).arrays ((dats m hO 0 c).arrAt · 0) := by
  rw [arrBufs_eq, arrays_eq3]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- What the region leaves in its output array: every block written back. -/
def outArr (hO : Ok m) (c : Dev nD) : Buf (Elt F) ((c : Thread nD τ).loc main_v3) := (dats m hO 0 c).arrAt 2 (cfgM m hO).N

/-- @main's result: the region's output, reshaped [32768, 1, 512] → [8, 4096, 512]. -/
def res (hO : Ok m) (c : Dev nD) : Buf (Elt F) ((c : Thread nD τ).loc main_v4) :=
  shapeCast S8x4096x512 (outArr m hO c) shapeCasts_S32768x1x512_S8x4096x512

/-- The buffers that bypass the region, after the last reshape: the arguments as they were, the result written. -/
def restOut (hO : Ok m) (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_v4) ↦{fullShare} res m hO c))

/-- The two buffers the last reshape touches. -/
def tailSet : Finset (DevRef τ sig) := {Proc.devRef .tc main_v3, Proc.devRef .tc main_v4}

/-- The contents the last reshape starts from: the output array as the region left it. -/
def tailVal (hO : Ok m) (c : Dev nD) : Valuation τ sig (Elt F) :=
  Function.update (V0 m c) (Proc.devRef .tc main_v3) (outArr m hO c)

theorem held_tailSet (c : Dev nD) (W : Valuation τ sig (Elt F)) :
    (StableHlo.held (c : Thread nD τ) tailSet W : sProp 𝕄)
      = iprop((((c : Thread nD τ).loc main_v3) ↦{fullShare} W (Proc.devRef .tc main_v3)) ∗ (((c : Thread nD τ).loc main_v4) ↦{fullShare} W (Proc.devRef .tc main_v4))) := by
  unfold StableHlo.held tailSet
  rw [bigSep_eq_bigSepL_of_eq [Proc.devRef .tc main_v3, Proc.devRef .tc main_v4] (by decide) (by decide)]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  intro b hb
  exact hb

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
theorem htail (hO : Ok m) (c : Dev nD) (Q' : PUnit → sProp 𝕄) :
    iprop((iprop((dats m hO 0 c).arrays ((dats m hO 0 c).arrAt · (cfgM m hO).N) ∗ restOut m hO c) -∗ Q' ⟨⟩)
        ∗ boundary (c : Thread nD τ) ∗ (dats m hO 0 c).arrays ((dats m hO 0 c).arrAt · (cfgM m hO).N)
        ∗ Pipeline.unscopedRestP (Ix := Unit) (Name := ℕ) (U := UR sig nD τ) (Lvl := ℕ) pre0 spec0 c (V m c))
      ⊢ wp frame (wpE (Pipeline.defs (pcfgs (F := F)) defs₀) (Variants.lift Variants.none) (c : Thread nD τ) none) Set.univ
          (Pipeline.chain [StableHlo.seq hostOps1]) Q' := by
  have e3 : StableHlo.after ([hostOps1] : List (List (HloOp τ sig (Elt F)))).flatten (tailVal m hO c) (Proc.devRef .tc main_v3) = outArr m hO c := by
    simp only [List.flatten_cons, List.flatten_nil, List.append_nil, hostOps1]
    after_results
    unfold tailVal; exact Function.update_self ..
  have e4 : StableHlo.after ([hostOps1] : List (List (HloOp τ sig (Elt F)))).flatten (tailVal m hO c) (Proc.devRef .tc main_v4) = res m hO c := by
    simp only [List.flatten_cons, List.flatten_nil, List.append_nil, hostOps1]
    after_results
    have e : tailVal m hO c (Proc.devRef .tc main_v3) = outArr m hO c := by unfold tailVal; exact Function.update_self ..
    rw [e]; rfl
  have h4 : tailVal m hO c (Proc.devRef .tc main_v4) = V m c main_v4 := by
    unfold tailVal; exact Function.update_of_ne (by decide) ..
  have h3 : tailVal m hO c (Proc.devRef .tc main_v3) = outArr m hO c := by unfold tailVal; exact Function.update_self ..
  have hheld : iprop((((c : Thread nD τ).loc main_v3) ↦{fullShare} outArr m hO c) ∗ (((c : Thread nD τ).loc main_v4) ↦{fullShare} V m c main_v4))
      ⊢ (StableHlo.held (c : Thread nD τ) tailSet (tailVal m hO c) : sProp 𝕄) := by
    rw [held_tailSet, h3, h4]
  have hafter : (StableHlo.held (c : Thread nD τ) tailSet (StableHlo.after ([hostOps1] : List (List (HloOp τ sig (Elt F)))).flatten (tailVal m hO c)) : sProp 𝕄)
      ⊢ iprop((((c : Thread nD τ).loc main_v3) ↦{fullShare} (dats m hO 0 c).arrAt 2 (cfgM m hO).N) ∗ (((c : Thread nD τ).loc main_v4) ↦{fullShare} res m hO c)) := by
    rw [held_tailSet, e3, e4]; exact .rfl
  rw [arrays_eq3, unscopedRestP0_eq]
  iintro ⟨Hk, Hb, ⟨Hl, Hr, H3⟩, ⟨Ha0, Ha1, Ha2, H4⟩⟩
  ihave Hh := hheld $$ [H3 H4]
  · isplitl [H3]; · iexact H3
    iexact H4
  rw [← List.append_nil ([StableHlo.seq hostOps1] : List _)]
  iapply (Pipeline.wp_seqs_then (pcfgs (F := F)) defs₀ Variants.none c tailSet [] [hostOps1] tail_sub tail_fresh (tailVal m hO c)) $$ [Hb Hh]
  · isplitl [Hb]; · iexact Hb
    iexact Hh
  iintro ⟨Hb, Hh⟩
  ihave Hh' := hafter $$ Hh
  icases Hh' with ⟨H3, H4⟩
  iapply (Pipeline.tail_ret (pcfgs (F := F)) (Pipeline.defs (pcfgs (F := F)) defs₀) (Variants.lift Variants.none) c
    iprop((((c : Thread nD τ).loc main_v2) ↦{fullShare.left} (dats m hO 0 c).arrAt 0 (cfgM m hO).N)
      ∗ (((c : Thread nD τ).loc main_v2) ↦{fullShare.right} (dats m hO 0 c).arrAt 1 (cfgM m hO).N)
      ∗ (((c : Thread nD τ).loc main_v3) ↦{fullShare} (dats m hO 0 c).arrAt 2 (cfgM m hO).N))
    (boundary (c : Thread nD τ)) (restOut m hO c) Q')
  isplitl [Hk]; · iexact Hk
  isplitl [Hb]; · iexact Hb
  isplitl [Hl Hr H3]
  · isplitl [Hl]; · iexact Hl
    isplitl [Hr]; · iexact Hr
    iexact H3
  unfold restOut
  isplitl [Ha0]; · iexact Ha0
  isplitl [Ha1]; · iexact Ha1
  isplitl [Ha2]; · iexact Ha2
  iexact H4

/-- The reshapes before the region write none of the three arguments. -/
theorem V_arg0 (c : Dev nD) : V m c main_arg0 = m ((c : Thread nD τ).loc main_arg0) := by
  dsimp only [V, V0]
  simp only [hostOps0, List.flatten_cons, List.flatten_nil, List.append_nil]
  after_results
theorem V_arg1 (c : Dev nD) : V m c main_arg1 = m ((c : Thread nD τ).loc main_arg1) := by
  dsimp only [V, V0]
  simp only [hostOps0, List.flatten_cons, List.flatten_nil, List.append_nil]
  after_results
theorem V_arg2 (c : Dev nD) : V m c main_arg2 = m ((c : Thread nD τ).loc main_arg2) := by
  dsimp only [V, V0]
  simp only [hostOps0, List.flatten_cons, List.flatten_nil, List.append_nil]
  after_results

/-- What the run ends with: the result at the reshape of what the region wrote, the arguments as launched. -/
def Post (hO : Ok m) : PUnit × MemSt nD τ sig (Elt F) → Prop := fun r => ∀ c : Dev nD,
  r.2.mem ((c : Thread nD τ).loc main_v4) = res m hO c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
/-- THE RUN: under the tables' side condition, from any memory with zero counters, every weakly fair execution of @main
    terminates, nothing faulting, in a state satisfying `Post`. -/
theorem run_main (hO : Ok m) : θ_run defs (onTc (τ := τ) (main (F := F))) (s₀ m ρ) (Post m hO) :=
  Pipeline.θ_run_region_pf_tail pcfgs (fun _ => adm m hO) (dats m hO) () (cellOf_inj fun _ => adm m hO) (0 : Fin 1)
    winFacts₀0 (Pipeline.OwnSemFacts.none _) preFacts0 emb₁ defs₀ Variants.none m ρ main
    (fun _ => Pipeline.chain [StableHlo.seq hostOps1]) (fun c => (body_obligation m hO c).loose)
    block_pos0 arr_whole0 stage_whole0 (fun _ _ => rfl)
    (G := fun _ => iprop(emp))
    (u₀ := initOf (Pipeline.cells (Pipeline.pin pcfgs fun _ => adm m hO) (cellOf_inj fun _ => adm m hO))
      (Pipeline.launchToks (Pipeline.pin pcfgs fun _ => adm m hO) (cellOf_inj fun _ => adm m hO)))
    (hu₀ := by
      iintro Hu; imodintro
      isplitl [Hu]
      · iapply (show (ownU _ : sProp 𝕄) ⊢ BI.own (emb₁ (initOf (Pipeline.cells (Pipeline.pin pcfgs fun _ => adm m hO) (cellOf_inj fun _ => adm m hO))
          (Pipeline.launchToks (Pipeline.pin pcfgs fun _ => adm m hO) (cellOf_inj fun _ => adm m hO)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m hO) (hpf := V_pre m)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := restOut m hO)
    (hX := fun c => by
      iintro ⟨HU, -, -, -, Hp, -⟩; imodintro
      isplitl [Hp]; · iexists _; iexact Hp
      iexact HU)
    (hin := fun c => by
      rw [show (dats m hO 0 c).Φ 0 = iprop(Pipeline.ΦA spec0 c ∗ Pipeline.ΦT pre0 (tbl m) c) from rfl]
      unfold Pipeline.ΦA Pipeline.ΦT
      iintro ⟨Hp, Ht, Hr⟩
      isplitr [Ht]
      · isplitl [Hr] <;> iassumption
      · iexact Ht)
    (hout := fun c => by
      rw [show (dats m hO 0 c).Φ (Fin.last _) = iprop(Pipeline.ΦA spec0 c ∗ Pipeline.ΦT pre0 (tbl m) c) from rfl, Pipeline.ownSems0_none]
      unfold Pipeline.ΦA
      iintro ⟨⟨Hr, Hp⟩, -⟩
      isplitl [Hp]; · iexact Hp
      isplitr; · iempintro
      iexact Hr)
    (htail := htail m hO)
    (QY := fun c s => s.mem ((c : Thread nD τ).loc main_arg0) = V m c main_arg0 ∧ s.mem ((c : Thread nD τ).loc main_arg1) = V m c main_arg1
      ∧ s.mem ((c : Thread nD τ).loc main_arg2) = V m c main_arg2 ∧ s.mem ((c : Thread nD τ).loc main_v4) = res m hO c)
    (hY := fun c s' => by
      unfold restOut
      iintro ⟨-, ⟨H0, H1, H2, H4⟩, HSI⟩
      icombine HSI H0 gives %h0
      icombine HSI H1 gives %h1
      icombine HSI H2 gives %h2
      icombine HSI H4 gives %h4
      imodintro
      isplitr
      · ipureintro
        exact ⟨Buf.eq_of_forall_mem_univ h0, Buf.eq_of_forall_mem_univ h1, Buf.eq_of_forall_mem_univ h2, Buf.eq_of_forall_mem_univ h4⟩
      iexact HSI)
    (hQ := fun s h c => ⟨(h c).2.2.2.2.2, (h c).2.2.1.trans (V_arg0 m c), (h c).2.2.2.1.trans (V_arg1 m c), (h c).2.2.2.2.1.trans (V_arg2 m c)⟩)

end Cert.Kernel.Gather

end
-- ==== Proof.Bits.Tables.lean ====
/-
  The row-index tables from the precondition.

  The precondition says, entry by entry, 0 ≤ input_one[b, s] < 50257 and 0 ≤ input_two[b, s] < 50257 as signed
  words. A word in [0, n) signed, n < 2³¹, is below n unsigned. The region's tables are the two index arrays
  reshaped to [32768]: a reshape moves entries and changes none, so every table entry is below 50257 unsigned, and
  the block (entry, 0, 0) of the [50257, 1, 512] table the input windows' index maps name lies inside it.
-/
import proofs.«418187_j11072425689873_2_alg».proof.Proof.Bits.Setup
import proofs.«418187_j11072425689873_2_alg».proof.Pre_finite_inputs
import proofs.«418187_j11072425689873_2_alg».proof.Proof.Gen.Pre_finite_inputs
import Idealize.ShloMosaic.Lib.StableHlo.Run
import Idealize.ShloMosaic.Lib.StableHlo.Predicate

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo.Predicate (ofBool_eq_one_iff)

variable (m : (ℓ : Loc nD τ sig) → Buf (Elt F) ℓ)

theorem andi_one (a b : BitVec 1) : IntOp.andi a b = 1#1 ↔ a = 1#1 ∧ b = 1#1 := by
  revert a b; decide

/-- A word in [0, n) as a signed number, n below 2³¹, is below n as an unsigned one. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  unfold IntOp.cmpi at h0 h1
  rw [ofBool_eq_one_iff] at h0 h1
  have h0' : (0#32).toInt ≤ w.toInt := by simpa [BitVec.sle] using h0
  have h1' : w.toInt < (BitVec.ofNat 32 n).toInt := by simpa [BitVec.slt] using h1
  rw [StableHlo.Predicate.toInt_ofNat_small n hn] at h1'
  have hz : (0#32).toInt = 0 := by decide
  rw [hz] at h0'
  have hw := w.isLt
  rw [BitVec.toInt_eq_toNat_cond] at h0' h1'
  split at h0' <;> omega

/-- The precondition at entry `y`: both indices there name a row of the table. -/
theorem pre_entry {a0 a1 : IVec S8x4096 32} {w : FVec F S50257x512 .f32}
    (h : Cert.Pre_finite_inputs.fn (F := F) a0 a1 w = fun _ => 1#1) (y : S8x4096.Idx) :
    (a0 y).toNat < 50257 ∧ (a1 y).toNat < 50257 := by
  have e := congrFun h y
  unfold Cert.Pre_finite_inputs.fn at e
  simp only [andi, cmpi, broadcastInDim, constantI] at e
  simp only [andi_one] at e
  obtain ⟨⟨⟨⟨-, h00⟩, h01⟩, h10⟩, h11⟩ := e
  exact ⟨toNat_lt_of_signed _ 50257 (by decide) h00 h01, toNat_lt_of_signed _ 50257 (by decide) h10 h11⟩

/-- The first table is the first index array's entries, reshaped. -/
theorem tbl0_eq : (tbl m 0 : S32768.Idx → BitVec 32)
    = shapeCast S32768 (m (((0 : Dev nD) : Thread nD τ).loc main_arg0)) shapeCasts_S8x4096_S32768 := by
  unfold tbl; dsimp only [V, V0]
  simp only [hostOps0, List.flatten_cons, List.flatten_nil, List.append_nil]
  after_results; rfl

/-- The second table is the second index array's entries, reshaped. -/
theorem tbl1_eq : (tbl m 1 : S32768.Idx → BitVec 32)
    = shapeCast S32768 (m (((0 : Dev nD) : Thread nD τ).loc main_arg1)) shapeCasts_S8x4096_S32768 := by
  unfold tbl; dsimp only [V, V0]
  simp only [hostOps0, List.flatten_cons, List.flatten_nil, List.append_nil]
  after_results; rfl

/-- THE SIDE CONDITION from the precondition: at every grid point both input windows' blocks, row (entry, 0, 0) of
    the table, lie inside it. -/
theorem ok_of_pre
    (h : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) : Ok m := by
  have h0 : ∀ x : S32768.Idx, ((tbl m 0 : S32768.Idx → BitVec 32) x).toNat < 50257 := fun x => by
    have e := congrFun (tbl0_eq m) x
    rw [e]; exact (pre_entry (h 0) _).1
  have h1 : ∀ x : S32768.Idx, ((tbl m 1 : S32768.Idx → BitVec 32) x).toNat < 50257 := fun x => by
    have e := congrFun (tbl1_eq m) x
    rw [e]; exact (pre_entry (h 0) _).2
  refine ⟨fun i => ?_, fun i => ?_⟩
  · obtain ⟨w, hw, e⟩ : ∃ w : BitVec 32, w.toNat < 50257 ∧ cc0_transform_0 k0_off1_inb numel1_S1 (tbl m) i = ![w.toNat, 0, 0] :=
      ⟨_, h0 _, rfl⟩
    refine ⟨fun a => ?_, Or.inl rfl⟩
    rw [e]
    fin_cases a <;> simp [S1x1x512, S50257x1x512] <;> omega
  · obtain ⟨w, hw, e⟩ : ∃ w : BitVec 32, w.toNat < 50257 ∧ cc0_transform_1 k0_off1_inb numel1_S1 (tbl m) i = ![w.toNat, 0, 0] :=
      ⟨_, h1 _, rfl⟩
    refine ⟨fun a => ?_, Or.inl rfl⟩
    rw [e]
    fin_cases a <;> simp [S1x1x512, S50257x1x512] <;> omega

end Cert.Kernel.Gather

end
-- ==== Proof.Ideal.Setup.lean ====
/-
  The gather kernel's launch, first part: what the region finds.

  @main reshapes the two index arrays [8, 4096] to [32768] (the tables the region prefetches), reshapes the
  embedding table [50257, 512] to [50257, 1, 512], runs the region over 32768 grid points, and reshapes the
  region's result [32768, 1, 512] to [8, 4096, 512]. This module names the buffers' contents when the region is
  entered (the three reshapes have run), the tables' contents read off them, the side condition the region asks of
  the tables (every row index names a row of the table), and reduces @main to the region continued by the last
  reshape.
-/
import proofs.«418187_j11072425689873_2_alg».proof.Proof.Gen.KernelIdeal.Launch
import proofs.«418187_j11072425689873_2_alg».proof.Proof.Gen.KernelIdeal.Skeleton
import Idealize.ShloMosaic.Lib.Pipeline.FrameSuffix
import Idealize.ShloMosaic.Lib.Pipeline.FrameBody
import Idealize.ShloMosaic.Lib.Tactic

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the three reshapes before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The two row-index tables as the region reads them at entry (one device). -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every row index the two input windows' index maps read names a row of the [50257, 1, 512] table. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three reshapes, the region, the last reshape: it reduces to the region continued by the last
    reshape, at the contents after the first three. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

end Cert.KernelIdeal.Gather

end
-- ==== Proof.Ideal.Body.lean ====
/-
  The gather kernel's body at one grid point.

  At point i the body reads the two row indices idx1[i], idx2[i] from the tables, loads the two staged rows (row
  idx1[i] and row idx2[i] of the embedding table, each a [1, 1, 512] block), and stores into the output block
  row₁ + (if idx1[i] = idx2[i] then 0 else row₂), lane by lane: the payload `k0_pay1` of the two words and the two
  rows. The run: from the two input staging buffers at their rows, the output staging buffer at anything and the
  tables' read-only halves, the body returns with the inputs as they were and the output buffer at that payload.
-/
import proofs.«418187_j11072425689873_2_alg».proof.Proof.Ideal.Setup
import Idealize.ShloMosaic.Lib.Ring
import Idealize.ShloMosaic.Lib.Pipeline.Value

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each table as the body is handed it: its whole buffer as a memref. -/
abbrev tbM0 : Memref sig .tc .smem S32768 .i32 := Memref.whole main_v0
abbrev htbM0 : tbM0.IsWhole := Memref.isWhole_whole _
abbrev tbM1 : Memref sig .tc .smem S32768 .i32 := Memref.whole main_v1
abbrev htbM1 : tbM1.IsWhole := Memref.isWhole_whole _

/-- A table's buffer on core `c`, and it held read-only (half the full share) at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of a [32768] table the body reads at grid point `i`: entry `i`. -/
abbrev wordAt (c : Dev nD) (M : Memref sig .tc .smem S32768 .i32) (xt : TbBuf (F := F) c M) (i : grid0.Coords) : Elt F .i32 :=
  M.view.readAt (Elt F) (Rect.unit (s := S32768) (k0_off1 i) S1.size (k0_off1_inb i)).toLoadRect xt (Shape.Idx.first (numel1_S1.symm ▸ Nat.one_pos))

theorem zero3 : (![0, 0, 0] : Fin 3 → Nat) = fun _ => 0 := by
  funext a; fin_cases a <;> rfl

set_option maxHeartbeats 1000000 in
/-- The body's run on any whole staging memrefs. -/
theorem bodyRun (c : Dev nD) (i : grid0.Coords) (arg3 : Memref sig .tc .vmem S1x1x512 .f32) (harg3 : arg3.IsWhole)
    (arg4 : Memref sig .tc .vmem S1x1x512 .f32) (harg4 : arg4.IsWhole) (arg5 : Memref sig .tc .vmem S1x1x512 .f32) (harg5 : arg5.IsWhole)
    (x0 x1 : Vec F S1x1x512 .f32) (xt0 : TbBuf (F := F) c tbM0) (xt1 : TbBuf (F := F) c tbM1) (E : Set ℕ) (K : PUnit → sProp 𝕄) :
    iprop(owns (c : Thread nD τ) arg3 fullShare x0 ∗ owns (c : Thread nD τ) arg4 fullShare x1 ∗ (∃ d, owns (c : Thread nD τ) arg5 fullShare d) ∗ tbPt c tbM0 xt0 ∗ tbPt c tbM1 xt1
        ∗ (iprop(owns (c : Thread nD τ) arg3 fullShare x0 ∗ owns (c : Thread nD τ) arg4 fullShare x1
              ∗ owns (c : Thread nD τ) arg5 fullShare (k0_pay1 (wordAt c tbM0 xt0 i) (wordAt c tbM1 xt1 i) x0 x1) ∗ tbPt c tbM0 xt0 ∗ tbPt c tbM1 xt1) -∗ K ⟨⟩))
      ⊢ wp frame (wpE (defs₀ (F := F)) Variants.none c none) E (cc0__gather_kernel i tbM0 htbM0 tbM1 htbM1 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, HT0, HT1, Hk⟩
  obtain rfl := harg3.eq_unread hf0
  obtain rfl := harg4.eq_unread hf1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    rw [View.read_writes_eq_canon _ _ _ (fun y => View.cover_of_wholeMem _ (by sl_whole_mem) y)]
    sl_unfold_words
    rw [View.canon_unit_zero zero3]
    simp only [View.readAt_eq_ld, harg3.read_unread, harg4.read_unread, View.ld_unit_zero (S := S1x1x512) zero3]
    rfl
  isplitl [HT0]; · iexact HT0
  iexact HT1

end Cert.KernelIdeal.Gather

end
-- ==== Proof.Ideal.Schedule.lean ====
/-
  The output window's schedule: its block index is the grid point itself, so consecutive points name different
  blocks and the block is written back at every point.
-/
import proofs.«418187_j11072425689873_2_alg».proof.Proof.Ideal.Setup

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Decided over the 32768 grid points. -/
theorem flushOut : ∀ t : Fin grid0.N, Pipeline.Window.flushOf grid0 true cc0_transform_2 t = true := by decide +kernel

/-- The output window is written back at every point, whatever the tables hold (its index map reads none). -/
theorem flush2 (a : (pcfg0 (F := F)).Adm) : ∀ t : Fin (cfg0 a).N, ((cfg0 a).win 2).flush t = true := flushOut

end Cert.KernelIdeal.Gather

end
-- ==== Proof.Ideal.Data.lean ====
/-
  The gather kernel's proof data and its body obligation.

  Window 0 and window 1 are two read-only windows on ONE array, the [50257, 1, 512] table: at point t window 0 stages
  row idx1[t] and window 1 row idx2[t]. Window 2 is the output, block t at point t. After the body at point t the two
  input buffers hold their rows still and the output buffer holds
      row idx1[t] + (if idx1[t] = idx2[t] then 0 else row idx2[t])
  (the payload `k0_pay1`). The table's full share is dealt half to each of the two windows that read it. The region's
  invariant is the scoped rest, the generator register and the tables' read-only halves, the same at every point.
-/
import proofs.«418187_j11072425689873_2_alg».proof.Proof.Ideal.Body
import proofs.«418187_j11072425689873_2_alg».proof.Proof.Ideal.Schedule

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the body leaves in the output's staging buffer at point `t`: the sum of the two gathered rows, the second
    dropped when the two indices coincide. -/
def outAt (hO : Ok m) (c : Dev nD) (t : Fin (cfgM m hO).N) : Vec F S1x1x512 .f32 :=
  k0_pay1 (wordAt c tbM0 (tbl m 0) (grid0.coords t)) (wordAt c tbM1 (tbl m 1) (grid0.coords t)) (iblk m hO c 0 t) (iblk m hO c 1 t)

/-- The proof data on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ _ := iprop(Pipeline.ΦA spec0 c ∗ Pipeline.ΦT pre0 (tbl m) c)
  q w := match w with
    | ⟨0, _⟩ => fullShare.left
    | ⟨1, _⟩ => fullShare.right
    | ⟨2, _⟩ => fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = outAt m hO c t := by dsimp only [dats]; try rfl

/-- Each input's current staging buffer holds its row at every point, fetched there or not (unfetched, the row index
    has not moved). -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- The output's staging buffer is fresh at every point: the block was written back at the point before. -/
theorem before_2 (hO : Ok m) (c : Dev nD) (t : Fin (cfgM m hO).N) (d) : (dats m hO 0 c).before 2 t d = d :=
  (dats m hO 0 c).before_out_reset 2 rfl t
    (by by_cases h : t.val = 0
        · exact .inl h
        · exact .inr ⟨h, flush2 (adm m hO) _⟩) d

/-- Each window's current staging memref at point `t`, as the pipeline passes it to the body. -/
abbrev ms0 (hO : Ok m) (t : Fin (cfgM m hO).N) : Memref sig .tc .vmem S1x1x512 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x512 .f32 := spec0_2.stage ((cfgM m hO).slots t 2)
abbrev hs2 (hO : Ok m) (t : Fin (cfgM m hO).N) : (ms2 m hO t).IsWhole := hstage0_2 (((cfgM m hO).slots t 2).cast nbuf0_2)

/-- The body at point `t`, on what the pipeline calls it with. -/
abbrev bodyAt (hO : Ok m) (t : Fin (cfgM m hO).N) : Prog (TpuEff nD τ sig (Elt F) Λ₀ .tc) PUnit :=
  cc0__gather_kernel (grid0.coords t) tbM0 htbM0 tbM1 htbM1 (ms0 m hO t) (hs0 m hO t) (ms1 m hO t) (hs1 m hO t) (ms2 m hO t) (hs2 m hO t)

/-- The tables' halves the region hands the body, table by table. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

/-- The body at any point: the inputs' buffers hold their rows, the output's anything; the run applies; the
    invariant passes through, its tables only read; the core owes nothing throughout. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2]
  rw [show (dats m hO 0 c).Φ t.castSucc = iprop(Pipeline.ΦA spec0 c ∗ Pipeline.ΦT pre0 (tbl m) c) from rfl, PhiT_eq]
  unfold outAt
  iintro ⟨⟨HΦ, ⟨HT0, HT1⟩⟩, Ho, ⟨%d0, H0⟩, ⟨%d1, H1⟩, ⟨%d2, H2⟩⟩
  iapply (bodyRun c (grid0.coords t) _ _ _ _ _ _ (iblk m hO c 0 t) (iblk m hO c 1 t) (tbl m 0) (tbl m 1) Set.univ _)
  isplitl [H0]; · iexact H0
  isplitl [H1]; · iexact H1
  isplitl [H2]; · iexists _; iexact H2
  isplitl [HT0]; · iexact HT0
  isplitl [HT1]; · iexact HT1
  iintro ⟨H0, H1, H2, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  iexact H2

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.KernelIdeal.Gather

end
-- ==== Proof.Ideal.Launch.lean ====
/-
  The gather kernel's launch.

  The region runs over the three windows; two of them read ONE array, the [50257, 1, 512] table, so the table's
  buffer, which the launch holds whole, is dealt half to each (a points-to splits along its share), the output's
  buffer goes whole to the third. After the region the last reshape runs over the output's buffer and the result's,
  and the run ends with the result at the reshape of what the region wrote, the arguments as they were.
-/
import proofs.«418187_j11072425689873_2_alg».proof.Proof.Ideal.Data

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the table's and the output's. -/
theorem arrBufs_eq (c : Dev nD) (W : (b : Ref sig .tc) → Buf (Elt F) ((c : Thread nD τ).loc b)) :
    (Pipeline.arrBufs spec0 c W : sProp 𝕄)
      = iprop((((c : Thread nD τ).loc main_v2) ↦{fullShare} W main_v2) ∗ (((c : Thread nD τ).loc main_v3) ↦{fullShare} W main_v3)) := by
  unfold Pipeline.arrBufs
  rw [show (Finset.univ.image (Pipeline.arrRef spec0)) = insert main_v2 {main_v3} from by decide,
    bigSep_insert (by decide), bigSep_singleton]
  rfl

/-- The windows' arrays at contents `Fa`, window by window: the table at half the full share twice, the output whole. -/
theorem arrays_eq3 (hO : Ok m) (c : Dev nD)
    (Fa : (w : Fin (cfgM m hO).W) → Buf (Elt F) (((cfgM m hO).win w).arr.view.loc (c : Thread nD τ))) :
    ((dats m hO 0 c).arrays Fa : sProp 𝕄)
      = iprop((((c : Thread nD τ).loc main_v2) ↦{fullShare.left} Fa 0) ∗ (((c : Thread nD τ).loc main_v2) ↦{fullShare.right} Fa 1)
          ∗ (((c : Thread nD τ).loc main_v3) ↦{fullShare} Fa 2)) := by
  have e0 : ((cfgM m hO).win (0 : Fin 3)).arr.view.set = Finset.univ := (arr_whole0 (0 : Fin 3)).set_eq_univ
  have e1 : ((cfgM m hO).win (1 : Fin 3)).arr.view.set = Finset.univ := (arr_whole0 (1 : Fin 3)).set_eq_univ
  have e2 : ((cfgM m hO).win (2 : Fin 3)).arr.view.set = Finset.univ := (arr_whole0 (2 : Fin 3)).set_eq_univ
  unfold Dat.arrays
  rw [bigSep_W0, e0]
  try rw [e1]
  rw [e2]
  rfl

theorem hsplit (hO : Ok m) (c : Dev nD) :
    (Pipeline.arrBufs spec0 c (V m c) : sProp 𝕄) ⊢ (dats m hO 0 c).arrays ((dats m hO 0 c).arrAt · 0) := by
  rw [arrBufs_eq, arrays_eq3]
  iintro ⟨H2, H3⟩
  ihave H2' := (pointsTo_share (PosShare.mem_left_op_right fullShare)).1 $$ H2
  icases H2' with ⟨Hl, Hr⟩
  isplitl [Hl]; · iexact Hl
  isplitl [Hr]; · iexact Hr
  iexact H3

/-- What the region leaves in its output array: every block written back. -/
def outArr (hO : Ok m) (c : Dev nD) : Buf (Elt F) ((c : Thread nD τ).loc main_v3) := (dats m hO 0 c).arrAt 2 (cfgM m hO).N

/-- @main's result: the region's output, reshaped [32768, 1, 512] → [8, 4096, 512]. -/
def res (hO : Ok m) (c : Dev nD) : Buf (Elt F) ((c : Thread nD τ).loc main_v4) :=
  shapeCast S8x4096x512 (outArr m hO c) shapeCasts_S32768x1x512_S8x4096x512

/-- The buffers that bypass the region, after the last reshape: the arguments as they were, the result written. -/
def restOut (hO : Ok m) (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_v4) ↦{fullShare} res m hO c))

/-- The two buffers the last reshape touches. -/
def tailSet : Finset (DevRef τ sig) := {Proc.devRef .tc main_v3, Proc.devRef .tc main_v4}

/-- The contents the last reshape starts from: the output array as the region left it. -/
def tailVal (hO : Ok m) (c : Dev nD) : Valuation τ sig (Elt F) :=
  Function.update (V0 m c) (Proc.devRef .tc main_v3) (outArr m hO c)

theorem held_tailSet (c : Dev nD) (W : Valuation τ sig (Elt F)) :
    (StableHlo.held (c : Thread nD τ) tailSet W : sProp 𝕄)
      = iprop((((c : Thread nD τ).loc main_v3) ↦{fullShare} W (Proc.devRef .tc main_v3)) ∗ (((c : Thread nD τ).loc main_v4) ↦{fullShare} W (Proc.devRef .tc main_v4))) := by
  unfold StableHlo.held tailSet
  rw [bigSep_eq_bigSepL_of_eq [Proc.devRef .tc main_v3, Proc.devRef .tc main_v4] (by decide) (by decide)]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  intro b hb
  exact hb

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
theorem htail (hO : Ok m) (c : Dev nD) (Q' : PUnit → sProp 𝕄) :
    iprop((iprop((dats m hO 0 c).arrays ((dats m hO 0 c).arrAt · (cfgM m hO).N) ∗ restOut m hO c) -∗ Q' ⟨⟩)
        ∗ boundary (c : Thread nD τ) ∗ (dats m hO 0 c).arrays ((dats m hO 0 c).arrAt · (cfgM m hO).N)
        ∗ Pipeline.unscopedRestP (Ix := Unit) (Name := ℕ) (U := UR sig nD τ) (Lvl := ℕ) pre0 spec0 c (V m c))
      ⊢ wp frame (wpE (Pipeline.defs (pcfgs (F := F)) defs₀) (Variants.lift Variants.none) (c : Thread nD τ) none) Set.univ
          (Pipeline.chain [StableHlo.seq hostOps1]) Q' := by
  have e3 : StableHlo.after ([hostOps1] : List (List (HloOp τ sig (Elt F)))).flatten (tailVal m hO c) (Proc.devRef .tc main_v3) = outArr m hO c := by
    simp only [List.flatten_cons, List.flatten_nil, List.append_nil, hostOps1]
    after_results
    unfold tailVal; exact Function.update_self ..
  have e4 : StableHlo.after ([hostOps1] : List (List (HloOp τ sig (Elt F)))).flatten (tailVal m hO c) (Proc.devRef .tc main_v4) = res m hO c := by
    simp only [List.flatten_cons, List.flatten_nil, List.append_nil, hostOps1]
    after_results
    have e : tailVal m hO c (Proc.devRef .tc main_v3) = outArr m hO c := by unfold tailVal; exact Function.update_self ..
    rw [e]; rfl
  have h4 : tailVal m hO c (Proc.devRef .tc main_v4) = V m c main_v4 := by
    unfold tailVal; exact Function.update_of_ne (by decide) ..
  have h3 : tailVal m hO c (Proc.devRef .tc main_v3) = outArr m hO c := by unfold tailVal; exact Function.update_self ..
  have hheld : iprop((((c : Thread nD τ).loc main_v3) ↦{fullShare} outArr m hO c) ∗ (((c : Thread nD τ).loc main_v4) ↦{fullShare} V m c main_v4))
      ⊢ (StableHlo.held (c : Thread nD τ) tailSet (tailVal m hO c) : sProp 𝕄) := by
    rw [held_tailSet, h3, h4]
  have hafter : (StableHlo.held (c : Thread nD τ) tailSet (StableHlo.after ([hostOps1] : List (List (HloOp τ sig (Elt F)))).flatten (tailVal m hO c)) : sProp 𝕄)
      ⊢ iprop((((c : Thread nD τ).loc main_v3) ↦{fullShare} (dats m hO 0 c).arrAt 2 (cfgM m hO).N) ∗ (((c : Thread nD τ).loc main_v4) ↦{fullShare} res m hO c)) := by
    rw [held_tailSet, e3, e4]; exact .rfl
  rw [arrays_eq3, unscopedRestP0_eq]
  iintro ⟨Hk, Hb, ⟨Hl, Hr, H3⟩, ⟨Ha0, Ha1, Ha2, H4⟩⟩
  ihave Hh := hheld $$ [H3 H4]
  · isplitl [H3]; · iexact H3
    iexact H4
  rw [← List.append_nil ([StableHlo.seq hostOps1] : List _)]
  iapply (Pipeline.wp_seqs_then (pcfgs (F := F)) defs₀ Variants.none c tailSet [] [hostOps1] tail_sub tail_fresh (tailVal m hO c)) $$ [Hb Hh]
  · isplitl [Hb]; · iexact Hb
    iexact Hh
  iintro ⟨Hb, Hh⟩
  ihave Hh' := hafter $$ Hh
  icases Hh' with ⟨H3, H4⟩
  iapply (Pipeline.tail_ret (pcfgs (F := F)) (Pipeline.defs (pcfgs (F := F)) defs₀) (Variants.lift Variants.none) c
    iprop((((c : Thread nD τ).loc main_v2) ↦{fullShare.left} (dats m hO 0 c).arrAt 0 (cfgM m hO).N)
      ∗ (((c : Thread nD τ).loc main_v2) ↦{fullShare.right} (dats m hO 0 c).arrAt 1 (cfgM m hO).N)
      ∗ (((c : Thread nD τ).loc main_v3) ↦{fullShare} (dats m hO 0 c).arrAt 2 (cfgM m hO).N))
    (boundary (c : Thread nD τ)) (restOut m hO c) Q')
  isplitl [Hk]; · iexact Hk
  isplitl [Hb]; · iexact Hb
  isplitl [Hl Hr H3]
  · isplitl [Hl]; · iexact Hl
    isplitl [Hr]; · iexact Hr
    iexact H3
  unfold restOut
  isplitl [Ha0]; · iexact Ha0
  isplitl [Ha1]; · iexact Ha1
  isplitl [Ha2]; · iexact Ha2
  iexact H4

/-- The reshapes before the region write none of the three arguments. -/
theorem V_arg0 (c : Dev nD) : V m c main_arg0 = m ((c : Thread nD τ).loc main_arg0) := by
  dsimp only [V, V0]
  simp only [hostOps0, List.flatten_cons, List.flatten_nil, List.append_nil]
  after_results
theorem V_arg1 (c : Dev nD) : V m c main_arg1 = m ((c : Thread nD τ).loc main_arg1) := by
  dsimp only [V, V0]
  simp only [hostOps0, List.flatten_cons, List.flatten_nil, List.append_nil]
  after_results
theorem V_arg2 (c : Dev nD) : V m c main_arg2 = m ((c : Thread nD τ).loc main_arg2) := by
  dsimp only [V, V0]
  simp only [hostOps0, List.flatten_cons, List.flatten_nil, List.append_nil]
  after_results

/-- What the run ends with: the result at the reshape of what the region wrote, the arguments as launched. -/
def Post (hO : Ok m) : PUnit × MemSt nD τ sig (Elt F) → Prop := fun r => ∀ c : Dev nD,
  r.2.mem ((c : Thread nD τ).loc main_v4) = res m hO c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
/-- THE RUN: under the tables' side condition, from any memory with zero counters, every weakly fair execution of @main
    terminates, nothing faulting, in a state satisfying `Post`. -/
theorem run_main (hO : Ok m) : θ_run defs (onTc (τ := τ) (main (F := F))) (s₀ m ρ) (Post m hO) :=
  Pipeline.θ_run_region_pf_tail pcfgs (fun _ => adm m hO) (dats m hO) () (cellOf_inj fun _ => adm m hO) (0 : Fin 1)
    winFacts₀0 (Pipeline.OwnSemFacts.none _) preFacts0 emb₁ defs₀ Variants.none m ρ main
    (fun _ => Pipeline.chain [StableHlo.seq hostOps1]) (fun c => (body_obligation m hO c).loose)
    block_pos0 arr_whole0 stage_whole0 (fun _ _ => rfl)
    (G := fun _ => iprop(emp))
    (u₀ := initOf (Pipeline.cells (Pipeline.pin pcfgs fun _ => adm m hO) (cellOf_inj fun _ => adm m hO))
      (Pipeline.launchToks (Pipeline.pin pcfgs fun _ => adm m hO) (cellOf_inj fun _ => adm m hO)))
    (hu₀ := by
      iintro Hu; imodintro
      isplitl [Hu]
      · iapply (show (ownU _ : sProp 𝕄) ⊢ BI.own (emb₁ (initOf (Pipeline.cells (Pipeline.pin pcfgs fun _ => adm m hO) (cellOf_inj fun _ => adm m hO))
          (Pipeline.launchToks (Pipeline.pin pcfgs fun _ => adm m hO) (cellOf_inj fun _ => adm m hO)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m hO) (hpf := V_pre m)
    (X := fun c => iprop(∃ r, prngReg c r)) (Y := fun c => iprop(∃ r, prngReg c r))
    (Z := fun c => Pipeline.unscopedRestP (Ix := Unit) (Name := ℕ) (U := UR sig nD τ) (Lvl := ℕ) pre0 spec0 c (V m c))
    (Z' := restOut m hO)
    (hX := fun c => by
      iintro ⟨HU, -, -, -, Hp, -⟩; imodintro
      isplitl [Hp]; · iexists _; iexact Hp
      iexact HU)
    (hin := fun c => by
      rw [show (dats m hO 0 c).Φ 0 = iprop(Pipeline.ΦA spec0 c ∗ Pipeline.ΦT pre0 (tbl m) c) from rfl]
      unfold Pipeline.ΦA Pipeline.ΦT
      iintro ⟨Hp, Ht, Hr⟩
      isplitr [Ht]
      · isplitl [Hr] <;> iassumption
      · iexact Ht)
    (hout := fun c => by
      rw [show (dats m hO 0 c).Φ (Fin.last _) = iprop(Pipeline.ΦA spec0 c ∗ Pipeline.ΦT pre0 (tbl m) c) from rfl, Pipeline.ownSems0_none]
      unfold Pipeline.ΦA
      iintro ⟨⟨Hr, Hp⟩, -⟩
      isplitl [Hp]; · iexact Hp
      isplitr; · iempintro
      iexact Hr)
    (htail := htail m hO)
    (QY := fun c s => s.mem ((c : Thread nD τ).loc main_arg0) = V m c main_arg0 ∧ s.mem ((c : Thread nD τ).loc main_arg1) = V m c main_arg1
      ∧ s.mem ((c : Thread nD τ).loc main_arg2) = V m c main_arg2 ∧ s.mem ((c : Thread nD τ).loc main_v4) = res m hO c)
    (hY := fun c s' => by
      unfold restOut
      iintro ⟨-, ⟨H0, H1, H2, H4⟩, HSI⟩
      icombine HSI H0 gives %h0
      icombine HSI H1 gives %h1
      icombine HSI H2 gives %h2
      icombine HSI H4 gives %h4
      imodintro
      isplitr
      · ipureintro
        exact ⟨Buf.eq_of_forall_mem_univ h0, Buf.eq_of_forall_mem_univ h1, Buf.eq_of_forall_mem_univ h2, Buf.eq_of_forall_mem_univ h4⟩
      iexact HSI)
    (hQ := fun s h c => ⟨(h c).2.2.2.2.2, (h c).2.2.1.trans (V_arg0 m c), (h c).2.2.2.1.trans (V_arg1 m c), (h c).2.2.2.2.1.trans (V_arg2 m c)⟩)

end Cert.KernelIdeal.Gather

end
-- ==== Proof.Ideal.Tables.lean ====
/-
  The row-index tables from the precondition.

  The precondition says, entry by entry, 0 ≤ input_one[b, s] < 50257 and 0 ≤ input_two[b, s] < 50257 as signed
  words. A word in [0, n) signed, n < 2³¹, is below n unsigned. The region's tables are the two index arrays
  reshaped to [32768]: a reshape moves entries and changes none, so every table entry is below 50257 unsigned, and
  the block (entry, 0, 0) of the [50257, 1, 512] table the input windows' index maps name lies inside it.
-/
import proofs.«418187_j11072425689873_2_alg».proof.Proof.Ideal.Setup
import proofs.«418187_j11072425689873_2_alg».proof.Pre_finite_inputs
import proofs.«418187_j11072425689873_2_alg».proof.Proof.Gen.Pre_finite_inputs
import Idealize.ShloMosaic.Lib.StableHlo.Run
import Idealize.ShloMosaic.Lib.StableHlo.Predicate

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo.Predicate (ofBool_eq_one_iff)

variable (m : (ℓ : Loc nD τ sig) → Buf (Elt F) ℓ)

theorem andi_one (a b : BitVec 1) : IntOp.andi a b = 1#1 ↔ a = 1#1 ∧ b = 1#1 := by
  revert a b; decide

/-- A word in [0, n) as a signed number, n below 2³¹, is below n as an unsigned one. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  unfold IntOp.cmpi at h0 h1
  rw [ofBool_eq_one_iff] at h0 h1
  have h0' : (0#32).toInt ≤ w.toInt := by simpa [BitVec.sle] using h0
  have h1' : w.toInt < (BitVec.ofNat 32 n).toInt := by simpa [BitVec.slt] using h1
  rw [StableHlo.Predicate.toInt_ofNat_small n hn] at h1'
  have hz : (0#32).toInt = 0 := by decide
  rw [hz] at h0'
  have hw := w.isLt
  rw [BitVec.toInt_eq_toNat_cond] at h0' h1'
  split at h0' <;> omega

/-- The precondition at entry `y`: both indices there name a row of the table. -/
theorem pre_entry {a0 a1 : IVec S8x4096 32} {w : FVec F S50257x512 .f32}
    (h : Cert.Pre_finite_inputs.fn (F := F) a0 a1 w = fun _ => 1#1) (y : S8x4096.Idx) :
    (a0 y).toNat < 50257 ∧ (a1 y).toNat < 50257 := by
  have e := congrFun h y
  unfold Cert.Pre_finite_inputs.fn at e
  simp only [andi, cmpi, broadcastInDim, constantI] at e
  simp only [andi_one] at e
  obtain ⟨⟨⟨⟨-, h00⟩, h01⟩, h10⟩, h11⟩ := e
  exact ⟨toNat_lt_of_signed _ 50257 (by decide) h00 h01, toNat_lt_of_signed _ 50257 (by decide) h10 h11⟩

/-- The first table is the first index array's entries, reshaped. -/
theorem tbl0_eq : (tbl m 0 : S32768.Idx → BitVec 32)
    = shapeCast S32768 (m (((0 : Dev nD) : Thread nD τ).loc main_arg0)) shapeCasts_S8x4096_S32768 := by
  unfold tbl; dsimp only [V, V0]
  simp only [hostOps0, List.flatten_cons, List.flatten_nil, List.append_nil]
  after_results; rfl

/-- The second table is the second index array's entries, reshaped. -/
theorem tbl1_eq : (tbl m 1 : S32768.Idx → BitVec 32)
    = shapeCast S32768 (m (((0 : Dev nD) : Thread nD τ).loc main_arg1)) shapeCasts_S8x4096_S32768 := by
  unfold tbl; dsimp only [V, V0]
  simp only [hostOps0, List.flatten_cons, List.flatten_nil, List.append_nil]
  after_results; rfl

/-- THE SIDE CONDITION from the precondition: at every grid point both input windows' blocks, row (entry, 0, 0) of
    the table, lie inside it. -/
theorem ok_of_pre
    (h : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) : Ok m := by
  have h0 : ∀ x : S32768.Idx, ((tbl m 0 : S32768.Idx → BitVec 32) x).toNat < 50257 := fun x => by
    have e := congrFun (tbl0_eq m) x
    rw [e]; exact (pre_entry (h 0) _).1
  have h1 : ∀ x : S32768.Idx, ((tbl m 1 : S32768.Idx → BitVec 32) x).toNat < 50257 := fun x => by
    have e := congrFun (tbl1_eq m) x
    rw [e]; exact (pre_entry (h 0) _).2
  refine ⟨fun i => ?_, fun i => ?_⟩
  · obtain ⟨w, hw, e⟩ : ∃ w : BitVec 32, w.toNat < 50257 ∧ cc0_transform_0 k0_off1_inb numel1_S1 (tbl m) i = ![w.toNat, 0, 0] :=
      ⟨_, h0 _, rfl⟩
    refine ⟨fun a => ?_, Or.inl rfl⟩
    rw [e]
    fin_cases a <;> simp [S1x1x512, S50257x1x512] <;> omega
  · obtain ⟨w, hw, e⟩ : ∃ w : BitVec 32, w.toNat < 50257 ∧ cc0_transform_1 k0_off1_inb numel1_S1 (tbl m) i = ![w.toNat, 0, 0] :=
      ⟨_, h1 _, rfl⟩
    refine ⟨fun a => ?_, Or.inl rfl⟩
    rw [e]
    fin_cases a <;> simp [S1x1x512, S50257x1x512] <;> omega

end Cert.KernelIdeal.Gather

end
-- ==== Proof.RefValue.lean ====
/-
  The reference's result read at an index.

  reference(input_one, input_two, weight)[b, s, d] = weight[i1, d] + (if input_one[b, s] = input_two[b, s] then 0 else
  weight[i2, d]), where i1, i2 are the two indices at (b, s), each first wrapped (a negative index counts from the
  end) and then clamped into [0, 50256] by the gather. For an index already in [0, 50257) neither the wrap nor the
  clamp changes it, and the gather reads row (index, as an unsigned number) of the table.
-/
import proofs.«418187_j11072425689873_2_alg».proof.Proof.Gen.ReferenceIdeal.Run
import proofs.«418187_j11072425689873_2_alg».proof.Proof.Gen.ReferenceIdeal.Read
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx

variable {F : FTy → Type} [FloatOps F]

/-- The gather's dimension numbers: rows of a [50257, 512] table taken at [8, 4096, 1] start indices. -/
abbrev gd : GatherDims S50257x512 S8x4096x1 S8x4096x512 := gather_S50257x512_S8x4096x1_S8x4096x512_2_0_n_n_0_2_1512

/-- THE GATHER READ AT (b, s, d): the table at row `idx[b, s, 0]`, read signed and clamped into [0, 50256], lane d. -/
theorem gather_row {α : Type} (x : S50257x512.Idx → α) (idx : IVec S8x4096x1 32) (b : Fin 8) (s : Fin 4096) (d : Fin 512)
    (r : Fin 50257) (hr : r.val = min (idx (ix3 b s (0 : Fin 1))).toInt.toNat 50256) :
    Host.gather gd x idx (ix3 b s d) = x (ix2 r d) := by
  unfold Host.gather
  refine congrArg x (funext fun a => Fin.ext ?_)
  match a with
  | ⟨0, _⟩ =>
    show gd.start (ix3 b s d) idx 0 + gd.batchCoord (ix3 b s d) 0 + gd.offCoord (ix3 b s d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix3 b s d) ⟨List.idxOf (0 : Fin 2) gd.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, hr]
    rfl
  | ⟨1, _⟩ =>
    show gd.start (ix3 b s d) idx 1 + gd.batchCoord (ix3 b s d) 1 + gd.offCoord (ix3 b s d) 1 = d.val
    rw [GatherDims.batchCoord_eq_zero _ _ _ List.not_mem_nil]
    have hst : gd.start (ix3 b s d) idx 1 = 0 := by
      unfold GatherDims.start
      rw [dif_neg (show (1 : Fin 2) ∉ gd.startIndexMap from by decide)]
    have hk : (1 : Fin 2) ∈ gd.sKept := by decide
    rw [hst]
    unfold GatherDims.offCoord
    rw [dif_pos hk]
    have e : gd.offsetDims[List.idxOf (1 : Fin 2) gd.sKept]'(by decide) = (2 : Fin 3) := by decide
    rw [e]
    show 0 + 0 + d.val = d.val
    omega

open Idealize.ShloMosaic.StableHlo.Predicate (slt_iff_toNat toInt_eq_toNat_of_lt)

/-- The reference's wrap of a negative index leaves a row index in [0, 50257) as it is. -/
theorem wrap_id (w : BitVec 32) (hw : w.toNat < 50257) :
    Scalar.select (IntOp.cmpi .slt w 0#32) (IntOp.addi w 50257#32) w = w := by
  have h : IntOp.cmpi .slt w 0#32 = 0#1 := eq_zero_of_ne_one fun h1 => by
    have h2 := (slt_iff_toNat (a := w) (b := 0#32) (by omega) (by decide)).mp h1
    have h3 : (0#32).toNat = 0 := by decide
    omega
  rw [h, select_zero]

/-- The row the gather reads for a start index in [0, 50257): the index itself. -/
theorem row_id (w : BitVec 32) (hw : w.toNat < 50257) : min w.toInt.toNat 50256 = w.toNat := by
  rw [toInt_eq_toNat_of_lt (by omega)]
  simp only [Int.toNat_natCast]
  omega

/-- THE REFERENCE AT (b, s, d), for indices that name rows of the table: the first gathered row's lane plus, unless the
    two indices coincide, the second's. -/
theorem ref_apply (a0 a1 : IVec S8x4096 32) (w : FVec F S50257x512 .f32) (b : Fin 8) (s : Fin 4096) (d : Fin 512)
    (r0 r1 : Fin 50257) (h0 : r0.val = (a0 (ix2 b s)).toNat) (h1 : r1.val = (a1 (ix2 b s)).toNat) :
    val_main_v17 (F := F) a0 a1 w (ix3 b s d)
      = FloatOps.addf (w (ix2 r0 d)) (Scalar.select (IntOp.cmpi .eq (a0 (ix2 b s)) (a1 (ix2 b s)))
          (FloatOps.ofBits .f32 0x00000000#32) (w (ix2 r1 d))) := by
  have hlt0 : (a0 (ix2 b s)).toNat < 50257 := h0 ▸ r0.isLt
  have hlt1 : (a1 (ix2 b s)).toNat < 50257 := h1 ▸ r1.isLt
  have e5 : idx_main_v5 (ix3 b s (0 : Fin 1)) = ix2 b s := by
    funext a; refine Fin.ext ?_
    match a with
    | ⟨0, _⟩ => rfl
    | ⟨1, _⟩ => rfl
  have e12 : idx_main_v12 (ix3 b s (0 : Fin 1)) = ix2 b s := by
    funext a; refine Fin.ext ?_
    match a with
    | ⟨0, _⟩ => rfl
    | ⟨1, _⟩ => rfl
  have e15 : idx_main_v15 (idx_main_call0_v1 (ix3 b s d)) = ix2 b s := by
    funext a; refine Fin.ext ?_
    match a with
    | ⟨0, _⟩ => rfl
    | ⟨1, _⟩ => rfl
  have g0 : val_main_v6 (F := F) a0 w (ix3 b s d) = w (ix2 r0 d) := by
    unfold val_main_v6
    refine gather_row _ _ b s d r0 ?_
    rw [val_main_v5_apply, e5, val_main_v4_apply, val_main_v1_apply, val_main_v3_apply, val_main_v0_apply, val_main_c_apply,
      val_main_v2_apply, val_main_c_0_apply, wrap_id _ hlt0, row_id _ hlt0, h0]
  have g1 : val_main_v13 (F := F) a1 w (ix3 b s d) = w (ix2 r1 d) := by
    unfold val_main_v13
    refine gather_row _ _ b s d r1 ?_
    rw [val_main_v12_apply, e12, val_main_v11_apply, val_main_v8_apply, val_main_v10_apply, val_main_v7_apply, val_main_c_1_apply,
      val_main_v9_apply, val_main_c_2_apply, wrap_id _ hlt1, row_id _ hlt1, h1]
  rw [val_main_v17_apply, val_main_v16_apply, g0, g1, val_main_call0_v1_apply, val_main_v15_apply, e15, val_main_v14_apply,
    val_main_call0_v2_apply, val_main_call0_v0_apply, val_main_cst_apply]

end Cert.ReferenceIdeal.RefValue

end
-- ==== Proof.Ideal.Value.lean ====
/-
  The gather kernel's result as a function of the arguments.

  Point t of the grid reads the words idx1[t], idx2[t] of the two tables — entries (t / 4096, t % 4096) of the two
  index arrays, a reshape moving entries without changing them —, stages rows idx1[t] and idx2[t] of the embedding
  table (row r, lane d of the [50257, 1, 512] table is entry (r, d) of the [50257, 512] one), and writes row t of the
  output: lane d holds  weight[idx1[t], d] + (if idx1[t] = idx2[t] then 0 else weight[idx2[t], d]).  The output's
  blocks, one per point, cover the output array, and @main's result is that array reshaped: element (b, s, d) is
  element (b·4096 + s, 0, d). This is the reference's value at (b, s, d) when both indices name rows of the table.
  Nothing here uses arithmetic on the entries: the two sides are one term of the same reads, at any float instance.
-/
import proofs.«418187_j11072425689873_2_alg».proof.Proof.Ideal.Launch
import proofs.«418187_j11072425689873_2_alg».proof.Proof.Ideal.Tables
import Idealize.ShloMosaic.Lib.ValueIdx
import Idealize.ShloMosaic.Lib.Pipeline.Value
import proofs.«418187_j11072425689873_2_alg».proof.Proof.RefValue

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- On the one-axis grid the point's coordinate is the point. -/
theorem coords0 (t : Fin grid0.N) : (grid0.coords t 0).val = t.val := by
  show t.val / grid0.stride 0 % grid0.bound 0 = t.val
  have h1 : grid0.stride 0 = 1 := by decide
  have h2 : grid0.bound 0 = 32768 := by decide
  have h3 := t.isLt
  have h4 : grid0.N = 32768 := N_0
  rw [h1, h2]; omega

/-- The word of the first table at point `t` is the first index array's entry at (t / 4096, t % 4096). -/
theorem word0 (c : Dev nD) (t : Fin grid0.N) (b : Fin 8) (s : Fin 4096) (hbs : b.val * 4096 + s.val = t.val) :
    wordAt c tbM0 (tbl m 0) (grid0.coords t) = m (((0 : Dev nD) : Thread nD τ).loc main_arg0) (ix2 b s) := by
  show (tbl m 0 : S32768.Idx → BitVec 32) _ = _
  rw [tbl0_eq]
  refine shapeCast_apply _ _ _ (ix2 b s) ?_
  rw [Shape.rowMajor_val_two, Shape.rowMajor_val_one]
  have e0 : ∀ (h : 0 < S1.numel), (Shape.Idx.first h (0 : Fin 1)).val = 0 := fun h => by
    have := (Shape.Idx.first h (0 : Fin 1)).isLt
    have e : S1.size (0 : Fin 1) = 1 := by decide
    omega
  have key : ∀ (off : Fin 1 → Nat) (inb : ∀ a, off a + S1.size a ≤ S32768.size a) (h1 : 0 < S1.numel),
      (tbM0.view.emb ((Rect.unit (s := S32768) off S1.size inb).idx (Shape.Idx.first h1)) 0).val = off 0 := by
    intro off inb h1
    show off 0 + 1 * (Shape.Idx.first h1 (0 : Fin 1)).val = off 0
    rw [e0]; omega
  refine Eq.trans ?_ (key (k0_off1 (grid0.coords t)) (k0_off1_inb _) _).symm
  rw [k0_off1_eq]
  show b.val * 4096 + s.val = (grid0.coords t 0).val
  rw [coords0]; exact hbs

/-- The word of the second table at point `t` is the second index array's entry at (t / 4096, t % 4096). -/
theorem word1 (c : Dev nD) (t : Fin grid0.N) (b : Fin 8) (s : Fin 4096) (hbs : b.val * 4096 + s.val = t.val) :
    wordAt c tbM1 (tbl m 1) (grid0.coords t) = m (((0 : Dev nD) : Thread nD τ).loc main_arg1) (ix2 b s) := by
  show (tbl m 1 : S32768.Idx → BitVec 32) _ = _
  rw [tbl1_eq]
  refine shapeCast_apply _ _ _ (ix2 b s) ?_
  rw [Shape.rowMajor_val_two, Shape.rowMajor_val_one]
  have e0 : ∀ (h : 0 < S1.numel), (Shape.Idx.first h (0 : Fin 1)).val = 0 := fun h => by
    have := (Shape.Idx.first h (0 : Fin 1)).isLt
    have e : S1.size (0 : Fin 1) = 1 := by decide
    omega
  have key : ∀ (off : Fin 1 → Nat) (inb : ∀ a, off a + S1.size a ≤ S32768.size a) (h1 : 0 < S1.numel),
      (tbM1.view.emb ((Rect.unit (s := S32768) off S1.size inb).idx (Shape.Idx.first h1)) 0).val = off 0 := by
    intro off inb h1
    show off 0 + 1 * (Shape.Idx.first h1 (0 : Fin 1)).val = off 0
    rw [e0]; omega
  refine Eq.trans ?_ (key (k0_off1 (grid0.coords t)) (k0_off1_inb _) _).symm
  rw [k0_off1_eq]
  show b.val * 4096 + s.val = (grid0.coords t 0).val
  rw [coords0]; exact hbs

/-- The table the two input windows read is the embedding table's entries, reshaped [50257, 512] → [50257, 1, 512]. -/
theorem V2_eq (c : Dev nD) : (V m c main_v2 : S50257x1x512.Idx → F .f32)
    = shapeCast S50257x1x512 (m ((c : Thread nD τ).loc main_arg2)) shapeCasts_S50257x512_S50257x1x512 := by
  dsimp only [V, V0]
  simp only [hostOps0, List.flatten_cons, List.flatten_nil, List.append_nil]
  after_results; rfl

/-- Window 0's block index at point `t` is (idx1[t], 0, 0), the word read as an unsigned number. -/
theorem index0 (hO : Ok m) (c : Dev nD) (t : Fin (cfgM m hO).N) :
    ((cfgM m hO).win 0).index t = ![(wordAt c tbM0 (tbl m 0) (grid0.coords t)).toNat, 0, 0] := rfl
theorem index1 (hO : Ok m) (c : Dev nD) (t : Fin (cfgM m hO).N) :
    ((cfgM m hO).win 1).index t = ![(wordAt c tbM1 (tbl m 1) (grid0.coords t)).toNat, 0, 0] := rfl
theorem index2 (hO : Ok m) (t : Fin (cfgM m hO).N) :
    ((cfgM m hO).win 2).index t = ![(grid0.coords t 0).val, 0, 0] := by
  show cc0_transform_2 (grid0.coords t) = _
  unfold cc0_transform_2
  dsimp only
  have h : (BitVec.ofNat 32 (grid0.coords t 0).val).toNat = (grid0.coords t 0).val := by
    rw [BitVec.toNat_ofNat]
    refine Nat.mod_eq_of_lt ?_
    have h1 := (grid0.coords t 0).isLt
    have e : grid0.bound 0 = 32768 := by decide
    omega
  rw [h]; rfl

/-- THE STAGED ROW: window 0's block at point `t`, read at lane `d`, is the embedding table at (idx1[t], d). -/
theorem blk0 (hO : Ok m) (c : Dev nD) (t : Fin (cfgM m hO).N)
    (y : (((cfgM m hO).win 0).xblock ((cfgM m hO).grid.coords t)).Idx) (r : Fin 50257) (d : Fin 512)
    (hr : r.val = (wordAt c tbM0 (tbl m 0) (grid0.coords t)).toNat) (hd : d.val = (y (2 : Fin 3)).val) :
    iblk m hO c 0 t y = m ((c : Thread nD τ).loc main_arg2) (ix2 r d) := by
  unfold iblk
  show (V m c main_v2 : S50257x1x512.Idx → F .f32) ((((cfgM m hO).win 0).blk t).view.emb y) = _
  rw [V2_eq]
  obtain ⟨e, he⟩ : ∃ e : S50257x1x512.Idx, e = (((cfgM m hO).win 0).blk t).view.emb y := ⟨_, rfl⟩
  rw [← he]
  have h0 : (e (0 : Fin 3)).val = ((cfgM m hO).win 0).index t (0 : Fin 3) * ((cfgM m hO).win 0).size (0 : Fin 3) + (y (0 : Fin 3)).val := by
    rw [he]; exact ((cfgM m hO).win 0).rect_emb_val t y (0 : Fin 3)
  have h1 : (e (1 : Fin 3)).val = ((cfgM m hO).win 0).index t (1 : Fin 3) * ((cfgM m hO).win 0).size (1 : Fin 3) + (y (1 : Fin 3)).val := by
    rw [he]; exact ((cfgM m hO).win 0).rect_emb_val t y (1 : Fin 3)
  have h2 : (e (2 : Fin 3)).val = ((cfgM m hO).win 0).index t (2 : Fin 3) * ((cfgM m hO).win 0).size (2 : Fin 3) + (y (2 : Fin 3)).val := by
    rw [he]; exact ((cfgM m hO).win 0).rect_emb_val t y (2 : Fin 3)
  rw [index0 m hO c t] at h0 h1 h2
  refine shapeCast_apply _ _ _ (ix2 r d) ?_
  rw [Shape.rowMajor_val_two, Shape.rowMajor_val_three]
  have h0' : (e (0 : Fin 3)).val = (wordAt c tbM0 (tbl m 0) (grid0.coords t)).toNat * 1 + (y (0 : Fin 3)).val := h0
  have h1' : (e (1 : Fin 3)).val = 0 * 1 + (y (1 : Fin 3)).val := h1
  have h2' : (e (2 : Fin 3)).val = 0 * 512 + (y (2 : Fin 3)).val := h2
  have y0 : (y (0 : Fin 3)).val < 1 := (y (0 : Fin 3)).isLt
  have y1 : (y (1 : Fin 3)).val < 1 := (y (1 : Fin 3)).isLt
  show r.val * 512 + d.val = ((e (0 : Fin 3)).val * 1 + (e (1 : Fin 3)).val) * 512 + (e (2 : Fin 3)).val
  omega

/-- Window 1's block at point `t`, read at lane `d`, is the embedding table at (idx2[t], d). -/
theorem blk1 (hO : Ok m) (c : Dev nD) (t : Fin (cfgM m hO).N)
    (y : (((cfgM m hO).win 1).xblock ((cfgM m hO).grid.coords t)).Idx) (r : Fin 50257) (d : Fin 512)
    (hr : r.val = (wordAt c tbM1 (tbl m 1) (grid0.coords t)).toNat) (hd : d.val = (y (2 : Fin 3)).val) :
    iblk m hO c 1 t y = m ((c : Thread nD τ).loc main_arg2) (ix2 r d) := by
  unfold iblk
  show (V m c main_v2 : S50257x1x512.Idx → F .f32) ((((cfgM m hO).win 1).blk t).view.emb y) = _
  rw [V2_eq]
  obtain ⟨e, he⟩ : ∃ e : S50257x1x512.Idx, e = (((cfgM m hO).win 1).blk t).view.emb y := ⟨_, rfl⟩
  rw [← he]
  have h0 : (e (0 : Fin 3)).val = ((cfgM m hO).win 1).index t (0 : Fin 3) * ((cfgM m hO).win 1).size (0 : Fin 3) + (y (0 : Fin 3)).val := by
    rw [he]; exact ((cfgM m hO).win 1).rect_emb_val t y (0 : Fin 3)
  have h1 : (e (1 : Fin 3)).val = ((cfgM m hO).win 1).index t (1 : Fin 3) * ((cfgM m hO).win 1).size (1 : Fin 3) + (y (1 : Fin 3)).val := by
    rw [he]; exact ((cfgM m hO).win 1).rect_emb_val t y (1 : Fin 3)
  have h2 : (e (2 : Fin 3)).val = ((cfgM m hO).win 1).index t (2 : Fin 3) * ((cfgM m hO).win 1).size (2 : Fin 3) + (y (2 : Fin 3)).val := by
    rw [he]; exact ((cfgM m hO).win 1).rect_emb_val t y (2 : Fin 3)
  rw [index1 m hO c t] at h0 h1 h2
  refine shapeCast_apply _ _ _ (ix2 r d) ?_
  rw [Shape.rowMajor_val_two, Shape.rowMajor_val_three]
  have h0' : (e (0 : Fin 3)).val = (wordAt c tbM1 (tbl m 1) (grid0.coords t)).toNat * 1 + (y (0 : Fin 3)).val := h0
  have h1' : (e (1 : Fin 3)).val = 0 * 1 + (y (1 : Fin 3)).val := h1
  have h2' : (e (2 : Fin 3)).val = 0 * 512 + (y (2 : Fin 3)).val := h2
  have y0 : (y (0 : Fin 3)).val < 1 := (y (0 : Fin 3)).isLt
  have y1 : (y (1 : Fin 3)).val < 1 := (y (1 : Fin 3)).isLt
  show r.val * 512 + d.val = ((e (0 : Fin 3)).val * 1 + (e (1 : Fin 3)).val) * 512 + (e (2 : Fin 3)).val
  omega

/-- An element of the output's block at point `t` sits in the output array at row `t`, the same lane. -/
theorem out_emb (hO : Ok m) (t : Fin (cfgM m hO).N) (y : (((cfgM m hO).win 2).xblock ((cfgM m hO).grid.coords t)).Idx)
    (i : S32768x1x512.Idx) (hi : i = (((cfgM m hO).win 2).blk t).view.emb y) :
    (i (0 : Fin 3)).val = t.val ∧ (i (1 : Fin 3)).val = 0 ∧ (i (2 : Fin 3)).val = (y (2 : Fin 3)).val := by
  have h0 : (i (0 : Fin 3)).val = ((cfgM m hO).win 2).index t (0 : Fin 3) * ((cfgM m hO).win 2).size (0 : Fin 3) + (y (0 : Fin 3)).val := by
    rw [hi]; exact ((cfgM m hO).win 2).rect_emb_val t y (0 : Fin 3)
  have h1 : (i (1 : Fin 3)).val = ((cfgM m hO).win 2).index t (1 : Fin 3) * ((cfgM m hO).win 2).size (1 : Fin 3) + (y (1 : Fin 3)).val := by
    rw [hi]; exact ((cfgM m hO).win 2).rect_emb_val t y (1 : Fin 3)
  have h2 : (i (2 : Fin 3)).val = ((cfgM m hO).win 2).index t (2 : Fin 3) * ((cfgM m hO).win 2).size (2 : Fin 3) + (y (2 : Fin 3)).val := by
    rw [hi]; exact ((cfgM m hO).win 2).rect_emb_val t y (2 : Fin 3)
  rw [index2 m hO t] at h0 h1 h2
  have h0' : (i (0 : Fin 3)).val = (grid0.coords t 0).val * 1 + (y (0 : Fin 3)).val := h0
  have h1' : (i (1 : Fin 3)).val = 0 * 1 + (y (1 : Fin 3)).val := h1
  have h2' : (i (2 : Fin 3)).val = 0 * 512 + (y (2 : Fin 3)).val := h2
  have y0 : (y (0 : Fin 3)).val < 1 := (y (0 : Fin 3)).isLt
  have y1 : (y (1 : Fin 3)).val < 1 := (y (1 : Fin 3)).isLt
  have hc := coords0 t
  omega

/-- THE PAYLOAD AT A LANE: the first row's lane plus, unless the two words coincide, the second's. -/
theorem pay_apply (w0 w1 : BitVec 32) (x0 x1 : Vec F S1x1x512 .f32) (y : S1x1x512.Idx) :
    k0_pay1 (F := F) w0 w1 x0 x1 y
      = FloatOps.addf (x0 y) (Scalar.select (IntOp.cmpi .eq w0 w1) (FloatOps.ofBits .f32 0x00000000#32) (x1 y)) := by
  unfold k0_pay1
  rw [shapeCast_self, shapeCast_self]
  show FloatOps.addf (x0 y) ((Scalar.select (IntOp.cmpi .eq w0 w1) (broadcast S1x1x512 (FloatOps.ofBits .f32 0x00000000#32)) x1) y) = _
  rcases BitVec.eq_zero_or_eq_one (IntOp.cmpi .eq w0 w1) with h | h
  · rw [h, select_zero, select_zero]
  · rw [h, select_one, select_one]; rfl

/-- Every element of the output array lies in the block of the point named by its row. -/
theorem out_cover (hO : Ok m) (i : S32768x1x512.Idx) :
    ∃ t : Fin (cfgM m hO).N, ((cfgM m hO).win 2).flush t = true ∧ i ∈ (((cfgM m hO).win 2).blk t).view.set := by
  refine ⟨⟨(i (0 : Fin 3)).val, (i (0 : Fin 3)).isLt⟩, flush2 (adm m hO) _, ?_⟩
  generalize ht : (⟨(i (0 : Fin 3)).val, (i (0 : Fin 3)).isLt⟩ : Fin (cfgM m hO).N) = t
  have htv : t.val = (i (0 : Fin 3)).val := by rw [← ht]
  let y : (((cfgM m hO).win 2).xblock ((cfgM m hO).grid.coords t)).Idx := fun a => match a with
    | ⟨0, _⟩ => ⟨0, Nat.one_pos⟩
    | ⟨1, _⟩ => ⟨0, Nat.one_pos⟩
    | ⟨2, _⟩ => ⟨(i (2 : Fin 3)).val, (i (2 : Fin 3)).isLt⟩
  obtain ⟨e, he⟩ : ∃ e : S32768x1x512.Idx, e = (((cfgM m hO).win 2).blk t).view.emb y := ⟨_, rfl⟩
  obtain ⟨h0, h1, h2⟩ := out_emb m hO t y e he
  have hei : e = i := by
    funext a; refine Fin.ext ?_
    have i1 : (i (1 : Fin 3)).val < 1 := (i (1 : Fin 3)).isLt
    have y2 : (y (2 : Fin 3)).val = (i (2 : Fin 3)).val := rfl
    match a with
    | ⟨0, _⟩ => exact h0.trans htv
    | ⟨1, _⟩ => show (e (1 : Fin 3)).val = (i (1 : Fin 3)).val; omega
    | ⟨2, _⟩ => exact h2.trans y2
  have hmem := (((cfgM m hO).win 2).blk t).view.emb_mem_set y
  rw [← he, hei] at hmem
  exact hmem

/-- Equal words and equal lanes give equal sums. -/
theorem glue (W0 W1 A0 A1 : BitVec 32) (X0 X1 Y0 Y1 : F .f32) (hw0 : W0 = A0) (hw1 : W1 = A1) (hx0 : X0 = Y0) (hx1 : X1 = Y1) :
    FloatOps.addf X0 (Scalar.select (IntOp.cmpi .eq W0 W1) (FloatOps.ofBits .f32 0x00000000#32) X1)
      = FloatOps.addf Y0 (Scalar.select (IntOp.cmpi .eq A0 A1) (FloatOps.ofBits .f32 0x00000000#32) Y1) := by
  subst hw0 hw1 hx0 hx1; rfl

/-- THE RESULT: when every index names a row of the table, @main's result is the reference's value of the arguments —
    element (b, s, d) of the result is element (b·4096 + s, 0, d) of the region's output, which point b·4096 + s wrote:
    row idx1 plus, unless the indices coincide, row idx2, at lane d. -/
theorem res_eq (hO : Ok m) (c : Dev nD)
    (h0 : ∀ y : S8x4096.Idx, ((m ((c : Thread nD τ).loc main_arg0) : S8x4096.Idx → BitVec 32) y).toNat < 50257)
    (h1 : ∀ y : S8x4096.Idx, ((m ((c : Thread nD τ).loc main_arg1) : S8x4096.Idx → BitVec 32) y).toNat < 50257) :
    (res m hO c : S8x4096x512.Idx → F .f32)
      = Cert.ReferenceIdeal.Read.val_main_v17 (F := F) (m ((c : Thread nD τ).loc main_arg0)) (m ((c : Thread nD τ).loc main_arg1))
          (m ((c : Thread nD τ).loc main_arg2)) := by
  obtain rfl : c = 0 := Subsingleton.elim _ _
  have key : ∀ i : S32768x1x512.Idx, ∀ (b : Fin 8) (s : Fin 4096) (d : Fin 512),
      (i (0 : Fin 3)).val = b.val * 4096 + s.val → (i (2 : Fin 3)).val = d.val →
      (outArr m hO 0 : S32768x1x512.Idx → F .f32) i
        = Cert.ReferenceIdeal.Read.val_main_v17 (F := F) (m (((0 : Dev nD) : Thread nD τ).loc main_arg0))
            (m (((0 : Dev nD) : Thread nD τ).loc main_arg1)) (m (((0 : Dev nD) : Thread nD τ).loc main_arg2)) (ix3 b s d) := by
    intro i
    refine (dats m hO 0 (0 : Dev nD)).arrAt_forall_of_cover 2
      (fun (i : S32768x1x512.Idx) (v : F .f32) => ∀ (b : Fin 8) (s : Fin 4096) (d : Fin 512),
        (i (0 : Fin 3)).val = b.val * 4096 + s.val → (i (2 : Fin 3)).val = d.val →
        v = Cert.ReferenceIdeal.Read.val_main_v17 (F := F) (m (((0 : Dev nD) : Thread nD τ).loc main_arg0))
            (m (((0 : Dev nD) : Thread nD τ).loc main_arg1)) (m (((0 : Dev nD) : Thread nD τ).loc main_arg2)) (ix3 b s d))
      ?_ (out_cover m hO) i
    intro t _ y b s d hi0 hi2
    obtain ⟨e0, -, e2⟩ := out_emb m hO t y _ rfl
    have hbs : b.val * 4096 + s.val = t.val := by omega
    have hd : d.val = (y (2 : Fin 3)).val := by omega
    have hw0 := word0 m 0 t b s hbs
    have hw1 := word1 m 0 t b s hbs
    have hb0 := blk0 m hO 0 t y ⟨_, h0 (ix2 b s)⟩ d (congrArg BitVec.toNat hw0).symm hd
    have hb1 := blk1 m hO 0 t y ⟨_, h1 (ix2 b s)⟩ d (congrArg BitVec.toNat hw1).symm hd
    show outAt m hO 0 t y = _
    unfold outAt
    exact ((pay_apply _ _ _ _ y).trans (glue _ _ _ _ _ _ _ _ hw0 hw1 hb0 hb1)).trans
      (Cert.ReferenceIdeal.RefValue.ref_apply _ _ _ b s d _ _ rfl rfl).symm
  funext j
  obtain ⟨b, s, d, rfl⟩ : ∃ (b : Fin 8) (s : Fin 4096) (d : Fin 512), j = ix3 b s d := ⟨j 0, j 1, j 2, eq_ix3 j⟩
  unfold res
  have hlt : b.val * 4096 + s.val < 32768 := by have := b.isLt; have := s.isLt; omega
  rw [shapeCast_apply _ _ _ (ix3 (⟨b.val * 4096 + s.val, hlt⟩ : Fin 32768) (0 : Fin 1) d) (by
    rw [Shape.rowMajor_val_three, Shape.rowMajor_val_three]
    show ((b.val * 4096 + s.val) * 1 + 0) * 512 + d.val = (b.val * 4096 + s.val) * 512 + d.val
    omega)]
  exact key _ b s d rfl rfl

end Cert.KernelIdeal.Gather

end
-- ==== Proof.lean ====
/-
  The certificate of the two-index embedding gather.

  The kernel computes, for each of the 32768 positions t = b·4096 + s and each of the 512 lanes d,
      out[b, s, d] = weight[i1, d] + (if i1 = i2 then 0 else weight[i2, d]),   i1 = input_one[b, s], i2 = input_two[b, s],
  one grid point per position: the two rows are staged through two windows on the table whose block indices are read
  from the prefetched index arrays. The reference takes the two rows by `weight[input_one]`, `weight[input_two]` and
  adds them under the same test. Under the precondition — the table finite, every index in [0, 50257) — the kernel's
  blocks lie inside the table (so it runs, and leaves its arguments alone), and the reference's wrap of negative
  indices and the gather's clamp change nothing, so both programs read the same rows and form the same sum: equal as
  terms, no law of the extended reals needed. The idealization rewrote no operation: nothing to preserve.
-/
import proofs.«418187_j11072425689873_2_alg».proof.Defs
import proofs.«418187_j11072425689873_2_alg».proof.Proof.Gen.Kernel
import proofs.«418187_j11072425689873_2_alg».proof.Proof.Gen.KernelIdeal
import proofs.«418187_j11072425689873_2_alg».proof.Proof.Gen.ReferenceIdeal
import proofs.«418187_j11072425689873_2_alg».proof.Proof.Gen.Pre_finite_inputs
import proofs.«418187_j11072425689873_2_alg».proof.Proof.Gen.ReferenceIdeal.Run
import proofs.«418187_j11072425689873_2_alg».proof.Proof.Gen.ReferenceIdeal.Read
import proofs.«418187_j11072425689873_2_alg».proof.Proof.Bits.Launch
import proofs.«418187_j11072425689873_2_alg».proof.Proof.Bits.Tables
import proofs.«418187_j11072425689873_2_alg».proof.Proof.Ideal.Launch
import proofs.«418187_j11072425689873_2_alg».proof.Proof.Ideal.Tables
import proofs.«418187_j11072425689873_2_alg».proof.Proof.Ideal.Value
import proofs.«418187_j11072425689873_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the precondition puts every block inside the table. -/
theorem frame_k : Cert.frame_Kernel := fun m ρ h =>
  (θ_run Cert.Kernel.defs _ _).mono (fun _ hr c => ⟨(hr c).2.1, (hr c).2.2.1, (hr c).2.2.2⟩)
    (Cert.Kernel.Gather.run_main (F := Bits) m ρ (Cert.Kernel.Gather.ok_of_pre m h))

/-- The same of the idealized kernel. -/
theorem frame_ki : Cert.frame_KernelIdeal := fun m ρ h =>
  (θ_run Cert.KernelIdeal.defs _ _).mono (fun _ hr c => ⟨(hr c).2.1, (hr c).2.2.1, (hr c).2.2.2⟩)
    (Cert.KernelIdeal.Gather.run_main (F := Ideal) m ρ (Cert.KernelIdeal.Gather.ok_of_pre m h))

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's value of the arguments. -/
theorem algebraic : Cert.algebraic_KernelIdeal_ReferenceIdeal := by
  intro m ρ m' ρ' hpre hagree
  have hO := Cert.KernelIdeal.Gather.ok_of_pre m hpre
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Gather.run_main (F := Ideal) m ρ hO)
    exact Cert.KernelIdeal.Gather.res_eq m hO c (fun y => (Cert.KernelIdeal.Gather.pre_entry (hpre c) y).1)
      (fun y => (Cert.KernelIdeal.Gather.pre_entry (hpre c) y).2)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.Read.val_main_v17_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
